-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x128 .f32) (main_arg3 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S200x10000 : Shape := ⟨2, ![200, 10000]⟩
abbrev S400x128 : Shape := ⟨2, ![400, 128]⟩
abbrev S200x128 : Shape := ⟨2, ![200, 128]⟩
abbrev S200 : Shape := ⟨1, ![200]⟩
abbrev S200x1 : Shape := ⟨2, ![200, 1]⟩

abbrev nBuf : Space → Nat
  | .hbm => 6
  | .vmem => 10
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S1x128, .f32⟩
  | .local _ .vmem, ⟨3, _⟩ => ⟨S200x10000, .f32⟩
  | .local _ .vmem, ⟨4, _⟩ => ⟨S200x10000, .f32⟩
  | .local _ .vmem, ⟨5, _⟩ => ⟨S200x10000, .f32⟩
  | .local _ .vmem, ⟨6, _⟩ => ⟨S200x10000, .f32⟩
  | .local _ .vmem, ⟨7, _⟩ => ⟨S400x128, .f32⟩
  | .local _ .vmem, ⟨8, _⟩ => ⟨S400x128, .f32⟩
  | .local _ .vmem, ⟨9, _⟩ => ⟨S10000x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![25], ![false]⟩

def k0_off1 (i : grid0.Coords) (c0_i32_6 : BitVec 32) : Fin 2 → Nat :=
  let c2_i32 : BitVec 32 := 2#32
  let arg0 : BitVec 32 := BitVec.ofNat 32 (i 0).val
  let v9 : BitVec 32 := Scalar.muli c2_i32 arg0
  let v10 : BitVec 32 := Scalar.addi v9 c0_i32_6
  let c200_i32 : BitVec 32 := 200#32
  let v11 : BitVec 32 := Scalar.muli v10 c200_i32
  let v12 : Index := Scalar.indexCast v11
  let c0_7 : Index := 0#32
  ![v12.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S200x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S200x10000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S200x10000_S200x10000_0_0 : ∀ a, (![0, 0] : Fin 2 → Nat) a + S200x10000.size a ≤ S200x10000.size a
  h_S200x10000 : 0 < S200x10000.numel
  h_S200x128 : 0 < S200x128.numel
  reduces_S200x128_S200 : S200x128.Reduces [1] S200
  shapeCasts_S200_S200x1 : S200.ShapeCasts S200x1
  broadcasts_S200x1_S200x128 : S200x1.Broadcasts S200x128
  broadcasts_S1x128_S200x128 : S1x128.Broadcasts S200x128
  inb_S400x128_S200x128_0_0 : ∀ a, (![0, 0] : Fin 2 → Nat) a + S200x128.size a ≤ S400x128.size a
  inb_S400x128_S200x128_200_0 : ∀ a, (![200, 0] : Fin 2 → Nat) a + S200x128.size a ≤ S400x128.size a
  dot_S10000x128_S128x128_S10000x128_1_0_0_1_n_n_wf : DotDims.WF S10000x128 S128x128 S10000x128 [1] [0] [0] [1] [] []
  dot_S200x10000_S10000x128_S200x128_1_0_0_1_n_n_wf : DotDims.WF S200x10000 S10000x128 S200x128 [1] [0] [0] [1] [] []
  hrank0 : 0 < grid0.rank
  k0_off1_inb : ∀ i : grid0.Coords, ∀ (r : Fin 2), ∀ a, (k0_off1 i (BitVec.ofNat 32 r.val)) a + S200x128.size a ≤ S10000x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x10000.size a ≤ S10000x10000.size a
  hwx0_3 : ∀ i : grid0.Coords, EltTy.bits .f32 = 32 ∨ (Rect.block (s := S10000x10000) S200x10000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S200x10000.size a ≤ S10000x10000.size a
  hwx0_4 : ∀ i : grid0.Coords, EltTy.bits .f32 = 32 ∨ (Rect.block (s := S10000x10000) S200x10000.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x128.size a ≤ S10000x128.size a
  hwx0_5 : ∀ i : grid0.Coords, EltTy.bits .f32 = 32 ∨ (Rect.block (s := S10000x128) S400x128.size (cc0_transform_5 i) (hinb0_5 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S200x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S200x10000.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S400x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩
abbrev S10000 : Shape := ⟨1, ![10000]⟩
abbrev S10000x1 : Shape := ⟨2, ![10000, 1]⟩
abbrev S1x128 : Shape := ⟨2, ![1, 128]⟩

abbrev nBuf : Space → Nat
  | .hbm => 26
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S10000x128, .f32⟩
  | .hbm, ⟨5, _⟩ => ⟨S10000x128, .f32⟩
  | .hbm, ⟨6, _⟩ => ⟨S_, .f32⟩
  | .hbm, ⟨7, _⟩ => ⟨S10000x128, .f32⟩
  | .hbm, ⟨8, _⟩ => ⟨S10000x128, .f32⟩
  | .hbm, ⟨9, _⟩ => ⟨S_, .f32⟩
  | .hbm, ⟨10, _⟩ => ⟨S10000x128, .f32⟩
  | .hbm, ⟨11, _⟩ => ⟨S10000x128, .f32⟩
  | .hbm, ⟨12, _⟩ => ⟨S10000x128, .f32⟩
  | .hbm, ⟨13, _⟩ => ⟨S10000x128, .f32⟩
  | .hbm, ⟨14, _⟩ => ⟨S_, .f32⟩
  | .hbm, ⟨15, _⟩ => ⟨S10000, .f32⟩
  | .hbm, ⟨16, _⟩ => ⟨S10000x1, .f32⟩
  | .hbm, ⟨17, _⟩ => ⟨S10000x1, .f32⟩
  | .hbm, ⟨18, _⟩ => ⟨S_, .f32⟩
  | .hbm, ⟨19, _⟩ => ⟨S10000x1, .f32⟩
  | .hbm, ⟨20, _⟩ => ⟨S10000x1, .f32⟩
  | .hbm, ⟨21, _⟩ => ⟨S10000x128, .f32⟩
  | .hbm, ⟨22, _⟩ => ⟨S10000x128, .f32⟩
  | .hbm, ⟨23, _⟩ => ⟨S1x128, .f32⟩
  | .hbm, ⟨24, _⟩ => ⟨S10000x128, .f32⟩
  | .hbm, ⟨25, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  reducesTo_S10000x128_S10000_d1 : S10000x128.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.FrameBits.Setup.lean ====
import proofs.«145090_g70068096467658_cont_9to1_m_110_5_alg».proof.Proof.Gen.Kernel.Launch
import proofs.«145090_g70068096467658_cont_9to1_m_110_5_alg».proof.Proof.Gen.Kernel.Skeleton
import proofs.«145090_g70068096467658_cont_9to1_m_110_5_alg».proof.Proof.Gen.Kernel.Points
import Idealize.ShloMosaic.Lib.Pipeline.FrameBody
import Idealize.ShloMosaic.Lib.Ring
import Idealize.ShloMosaic.Lib.Tactic

/-!
# What the grid's points share

The one pipelined call walks 25 points; point `t` reads rows `400 t … 400 t + 399` of the adjacency matrix as two
blocks of 200 rows (two windows on the one array), the whole of `x`, the weight and the bias row (their windows
never move), and writes rows `400 t … 400 t + 399` of the result. The first point also fills a scratch buffer with
`x · W`, which every later point reads. This module fixes the vocabulary the per-point runs are stated over: the
arrays as the call finds them, each window's block at a point, the test "this is the first point", and the
staging memrefs a point is called with.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the call -/

/-- Core `c`'s buffers when the call is entered: the launch contents after the one host line (the bias reshaped to a row). -/
abbrev V (c : Dev nD) (b : Ref sig .tc) : Buf (Elt F) ((c : Thread nD τ).loc b) :=
  StableHlo.after hostOps0 (fun b => m (c, b)) (Proc.devRef .tc b)

theorem hostOps0_fresh : (hostOps0 : List (HloOp τ sig (Elt F))).Forall fun op => op.fresh = ∅ := by
  simp only [List.Forall]; repeat' constructor

/-- @main is that line, then the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host line writes only the bias row: the four arguments are as launched. -/
theorem V_main_arg0 (c : Dev nD) : V m c main_arg0 = m ((c : Thread nD τ).loc main_arg0) := by
  dsimp only [V, hostOps0]; after_results
theorem V_main_arg1 (c : Dev nD) : V m c main_arg1 = m ((c : Thread nD τ).loc main_arg1) := by
  dsimp only [V, hostOps0]; after_results
theorem V_main_arg2 (c : Dev nD) : V m c main_arg2 = m ((c : Thread nD τ).loc main_arg2) := by
  dsimp only [V, hostOps0]; after_results
theorem V_main_arg3 (c : Dev nD) : V m c main_arg3 = m ((c : Thread nD τ).loc main_arg3) := by
  dsimp only [V, hostOps0]; after_results

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof data
    over these arrays whose body leaves the block in place: an unfetched window's block index has not moved. One
    statement per input window (the block's shape is a literal only at a literal window). -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The first point -/

/-- The body's one branch: "the grid coordinate is 0", as the kernel computes it. -/
abbrev condFirst (i : grid0.Coords) : Prop := (Scalar.cmpi .ne (Scalar.extui (Scalar.cmpi .eq (BitVec.ofNat 32 (i 0).val) 0#32)) 0#32) = 1#1
/-- It holds at point 0 and at no other — decided over the 25 points. -/
theorem hcondFirst : ∀ t : Fin cfg0.N, condFirst (grid0.coords t) ↔ t.val = 0 :=
  (by decide +kernel : ∀ t : Fin grid0.N, condFirst (grid0.coords t) ↔ t.val = 0)

/-- No window is ever idle. -/
theorem liveAt (w : Fin cfg0.W) : ∀ i, cfg0.idle w i = false := fun _ => rfl

/-! ## The memrefs a point is called with -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S200x10000 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S200x10000 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S400x128 .f32 := win0_5.stage (cfg0.slots t 5)
abbrev hs5 (t : Fin cfg0.N) : (ms5 t).IsWhole := hstage0_5 ((cfg0.slots t 5).cast nbuf0_5)
/-- The scratch that carries `x · W` from the first point on: a whole scoped buffer of the kernel's own. -/
abbrev scM : Memref sig .tc .vmem S10000x128 .bf16 := Memref.whole cc0_scratch0
/-- One staging buffer of the result window and the scratch, as views: contents are stated through them. -/
abbrev VO : View sig .tc .vmem S400x128 .f32 := (Memref.whole cc0_stg5_0 : Memref sig .tc .vmem S400x128 .f32).view
abbrev VS : View sig .tc .vmem S10000x128 .bf16 := scM.view

/-- The core's scoped buffers that are no staging buffer: the scratch, owned at some contents. -/
theorem scopedRest_eq (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

end Cert.Kernel.Fr

end
-- ==== Proof.FrameBits.RunFirst.lean ====
import proofs.«145090_g70068096467658_cont_9to1_m_110_5_alg».proof.Proof.FrameBits.Setup

/-!
# The body at the first point

At the grid's first point the branch is taken: the body loads `x` and the weight, stores `x · W` (rounded to the
scratch's format) over the whole scratch, reads it back, and then does what every point does — two products of a
200-row block of the adjacency matrix with the scratch, each blended with the matching 200 rows of `x`, normalised
row by row, shifted by the bias and stored into one half of the result block. The run is stated on any whole
staging memrefs: the five inputs at given contents, the result block and the scratch at anything; it ends with
the inputs as they were and the result block and the scratch each overwritten by a list of stores, which the run
itself finds.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores the body leaves in the result block and in the scratch (last first), with the run that leaves them. -/
noncomputable def kernelRunFirst (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x128 .f32) (harg6 : arg6.IsWhole) (arg7 : Memref sig .tc .vmem S10000x128 .bf16) (harg7 : arg7.IsWhole) (hc : condFirst i)
    (x0 : Vec F S10000x128 .f32) (x1 : Vec F S128x128 .f32) (x2 : Vec F S1x128 .f32) (x3 : Vec F S200x10000 .f32) (x4 : Vec F S200x10000 .f32) :
    Σ' (L5 : List (View.Piece (Elt F) S400x128 .f32)), { LS : List (View.Piece (Elt F) S10000x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS)) -∗ K ⟨⟩))
          ⊢ wp frame (wpE (defs₀ (F := F)) Variants.none c none) E (cc0__body i arg1 harg1 arg2 harg2 arg3 harg3 arg4 harg4 arg5 harg5 arg6 harg6 arg7 harg7) K } := by
  refine ⟨?_, ?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds, %fs, -, HS⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS

end Cert.Kernel.Fr

end
-- ==== Proof.FrameBits.RunLater.lean ====
import proofs.«145090_g70068096467658_cont_9to1_m_110_5_alg».proof.Proof.FrameBits.RunFirst

/-!
# The body at a later point

After the first point the branch is not taken: the scratch is only read. The run is stated on any whole staging
memrefs with the scratch at given contents `xs`, which it ends with unchanged; the result block ends overwritten by
the two half-block stores, found by the run.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores the body leaves in the result block (last first), with the run that leaves them. -/
noncomputable def kernelRunLater (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x128 .f32) (harg6 : arg6.IsWhole) (arg7 : Memref sig .tc .vmem S10000x128 .bf16) (harg7 : arg7.IsWhole) (hc : ¬condFirst i)
    (x0 : Vec F S10000x128 .f32) (x1 : Vec F S128x128 .f32) (x2 : Vec F S1x128 .f32) (x3 : Vec F S200x10000 .f32) (x4 : Vec F S200x10000 .f32) (xs : Vec F S10000x128 .bf16) :
    { L5 : List (View.Piece (Elt F) S400x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ owns (c : Thread nD τ) arg7 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5) ∗ owns (c : Thread nD τ) arg7 fullShare xs) -∗ K ⟨⟩))
          ⊢ wp frame (wpE (defs₀ (F := F)) Variants.none c none) E (cc0__body i arg1 harg1 arg2 harg2 arg3 harg3 arg4 harg4 arg5 harg5 arg6 harg6 arg7 harg7) K } := by
  refine ⟨?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; isplitr; · ipureintro; exact harg7.read_unread _
    iexact HS

end Cert.Kernel.Fr

end
-- ==== Proof.FrameBits.Points.lean ====
import proofs.«145090_g70068096467658_cont_9to1_m_110_5_alg».proof.Proof.FrameBits.RunLater

/-!
# Point by point: what the result block and the scratch hold, and the body's obligation

After the first point the scratch holds what that point's stores left (`x · W`); every later point leaves it as it
found it. After point `t` the result window's staging buffer holds the two half-block stores of that point, computed
from the point's two adjacency blocks, the rows of `x` it reads, the bias row and the scratch. `stateAt` says both by
recursion on the point. The proof data of the pipeline then are: the arrays as the call finds them; each input
window left at its block; the result window at `stateAt`'s first component; between points the scratch at
`stateAt`'s second component (at anything before the first point). The adjacency matrix is read through two windows,
so its array is held in two halves, one per window.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The stores cover their buffers -/

theorem scoverFirst (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x128 .f32) (harg6 : arg6.IsWhole) (arg7 : Memref sig .tc .vmem S10000x128 .bf16) (harg7 : arg7.IsWhole) (hc : condFirst i) (x0 : Vec F S10000x128 .f32) (x1 : Vec F S128x128 .f32) (x2 : Vec F S1x128 .f32) (x3 : Vec F S200x10000 .f32) (x4 : Vec F S200x10000 .f32) (y : S10000x128.Idx) :
    ∃ pc ∈ (kernelRunFirst c i arg1 harg1 arg2 harg2 arg3 harg3 arg4 harg4 arg5 harg5 arg6 harg6 arg7 harg7 hc x0 x1 x2 x3 x4).2.1, y ∈ pc.1.set :=
  View.cover_of_tiledL (kernelRunFirst c i arg1 harg1 arg2 harg2 arg3 harg3 arg4 harg4 arg5 harg5 arg6 harg6 arg7 harg7 hc x0 x1 x2 x3 x4).2.1 S10000x128.size (by sl_kernel_rfl) y

theorem coverFirst (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x128 .f32) (harg6 : arg6.IsWhole) (arg7 : Memref sig .tc .vmem S10000x128 .bf16) (harg7 : arg7.IsWhole) (hc : condFirst i) (x0 : Vec F S10000x128 .f32) (x1 : Vec F S128x128 .f32) (x2 : Vec F S1x128 .f32) (x3 : Vec F S200x10000 .f32) (x4 : Vec F S200x10000 .f32) (y : S400x128.Idx) :
    ∃ pc ∈ (kernelRunFirst c i arg1 harg1 arg2 harg2 arg3 harg3 arg4 harg4 arg5 harg5 arg6 harg6 arg7 harg7 hc x0 x1 x2 x3 x4).1, y ∈ pc.1.set :=
  View.cover_of_tiledL (kernelRunFirst c i arg1 harg1 arg2 harg2 arg3 harg3 arg4 harg4 arg5 harg5 arg6 harg6 arg7 harg7 hc x0 x1 x2 x3 x4).1 S200x128.size (by sl_kernel_rfl) y

theorem coverLater (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x128 .f32) (harg6 : arg6.IsWhole) (arg7 : Memref sig .tc .vmem S10000x128 .bf16) (harg7 : arg7.IsWhole) (hc : ¬condFirst i) (x0 : Vec F S10000x128 .f32) (x1 : Vec F S128x128 .f32) (x2 : Vec F S1x128 .f32) (x3 : Vec F S200x10000 .f32) (x4 : Vec F S200x10000 .f32) (xs : Vec F S10000x128 .bf16) (y : S400x128.Idx) :
    ∃ pc ∈ (kernelRunLater c i arg1 harg1 arg2 harg2 arg3 harg3 arg4 harg4 arg5 harg5 arg6 harg6 arg7 harg7 hc x0 x1 x2 x3 x4 xs).1, y ∈ pc.1.set :=
  View.cover_of_tiledL (kernelRunLater c i arg1 harg1 arg2 harg2 arg3 harg3 arg4 harg4 arg5 harg5 arg6 harg6 arg7 harg7 hc x0 x1 x2 x3 x4 xs).1 S200x128.size (by sl_kernel_rfl) y

/-- What the first point leaves in the scratch: its stores read back. -/
def supOf (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x128 .f32) (harg6 : arg6.IsWhole) (arg7 : Memref sig .tc .vmem S10000x128 .bf16) (harg7 : arg7.IsWhole) (hc : condFirst i) (x0 : Vec F S10000x128 .f32) (x1 : Vec F S128x128 .f32) (x2 : Vec F S1x128 .f32) (x3 : Vec F S200x10000 .f32) (x4 : Vec F S200x10000 .f32) : Vec F S10000x128 .bf16 :=
  VS.read (Elt F) (VS.writes (Elt F) VS.junk (kernelRunFirst c i arg1 harg1 arg2 harg2 arg3 harg3 arg4 harg4 arg5 harg5 arg6 harg6 arg7 harg7 hc x0 x1 x2 x3 x4).2.1)

/-- What the first point leaves in the result block. -/
def outFirst (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x128 .f32) (harg6 : arg6.IsWhole) (arg7 : Memref sig .tc .vmem S10000x128 .bf16) (harg7 : arg7.IsWhole) (hc : condFirst i) (x0 : Vec F S10000x128 .f32) (x1 : Vec F S128x128 .f32) (x2 : Vec F S1x128 .f32) (x3 : Vec F S200x10000 .f32) (x4 : Vec F S200x10000 .f32) : Vec F S400x128 .f32 :=
  VO.read (Elt F) (VO.writes (Elt F) VO.junk (kernelRunFirst c i arg1 harg1 arg2 harg2 arg3 harg3 arg4 harg4 arg5 harg5 arg6 harg6 arg7 harg7 hc x0 x1 x2 x3 x4).1)

/-- What a later point leaves in the result block, the scratch holding `xs`. -/
def outLater (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x128 .f32) (harg6 : arg6.IsWhole) (arg7 : Memref sig .tc .vmem S10000x128 .bf16) (harg7 : arg7.IsWhole) (hc : ¬condFirst i) (x0 : Vec F S10000x128 .f32) (x1 : Vec F S128x128 .f32) (x2 : Vec F S1x128 .f32) (x3 : Vec F S200x10000 .f32) (x4 : Vec F S200x10000 .f32) (xs : Vec F S10000x128 .bf16) : Vec F S400x128 .f32 :=
  VO.read (Elt F) (VO.writes (Elt F) VO.junk (kernelRunLater c i arg1 harg1 arg2 harg2 arg3 harg3 arg4 harg4 arg5 harg5 arg6 harg6 arg7 harg7 hc x0 x1 x2 x3 x4 xs).1)

/-! ## After each point -/

/-- The result window's staging buffer and the scratch after the body at position `n`. -/
def stateAt (c : Dev nD) : (n : ℕ) → n < cfg0.N → Vec F S400x128 .f32 × Vec F S10000x128 .bf16
  | 0, hn => (outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) scM (Memref.isWhole_whole _) ((hcondFirst ⟨0, hn⟩).mpr rfl) (iblk m c 0 ⟨0, hn⟩) (iblk m c 1 ⟨0, hn⟩) (iblk m c 2 ⟨0, hn⟩) (iblk m c 3 ⟨0, hn⟩) (iblk m c 4 ⟨0, hn⟩),
      supOf c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) scM (Memref.isWhole_whole _) ((hcondFirst ⟨0, hn⟩).mpr rfl) (iblk m c 0 ⟨0, hn⟩) (iblk m c 1 ⟨0, hn⟩) (iblk m c 2 ⟨0, hn⟩) (iblk m c 3 ⟨0, hn⟩) (iblk m c 4 ⟨0, hn⟩))
  | n + 1, hn => (outLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scM (Memref.isWhole_whole _) (fun h => Nat.succ_ne_zero n ((hcondFirst ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (stateAt c n (Nat.lt_of_succ_lt hn)).2,
      (stateAt c n (Nat.lt_of_succ_lt hn)).2)

theorem stateAt_first (c : Dev nD) (t : Fin cfg0.N) (hz : t.val = 0) :
    stateAt m c t.val t.isLt = (outFirst c (grid0.coords t) (ms0 t) (hs0 t) (ms1 t) (hs1 t) (ms2 t) (hs2 t) (ms3 t) (hs3 t) (ms4 t) (hs4 t) (ms5 t) (hs5 t) scM (Memref.isWhole_whole _) ((hcondFirst t).mpr hz) (iblk m c 0 t) (iblk m c 1 t) (iblk m c 2 t) (iblk m c 3 t) (iblk m c 4 t),
      supOf c (grid0.coords t) (ms0 t) (hs0 t) (ms1 t) (hs1 t) (ms2 t) (hs2 t) (ms3 t) (hs3 t) (ms4 t) (hs4 t) (ms5 t) (hs5 t) scM (Memref.isWhole_whole _) ((hcondFirst t).mpr hz) (iblk m c 0 t) (iblk m c 1 t) (iblk m c 2 t) (iblk m c 3 t) (iblk m c 4 t)) := by
  obtain ⟨n, hn⟩ := t
  cases n with
  | zero => rfl
  | succ n => exact absurd hz (Nat.succ_ne_zero n)

theorem stateAt_later (c : Dev nD) (t : Fin cfg0.N) (hz : t.val ≠ 0) :
    stateAt m c t.val t.isLt = (outLater c (grid0.coords t) (ms0 t) (hs0 t) (ms1 t) (hs1 t) (ms2 t) (hs2 t) (ms3 t) (hs3 t) (ms4 t) (hs4 t) (ms5 t) (hs5 t) scM (Memref.isWhole_whole _) (fun h => hz ((hcondFirst t).mp h)) (iblk m c 0 t) (iblk m c 1 t) (iblk m c 2 t) (iblk m c 3 t) (iblk m c 4 t) (stateAt m c (t.val - 1) (Nat.lt_of_le_of_lt (Nat.sub_le _ _) t.isLt)).2,
      (stateAt m c (t.val - 1) (Nat.lt_of_le_of_lt (Nat.sub_le _ _) t.isLt)).2) := by
  obtain ⟨n, hn⟩ := t
  cases n with
  | zero => exact absurd rfl hz
  | succ n => rfl

/-- Between points: before the first the scratch holds anything; afterwards what the point before left. -/
def PhiS (c : Dev nD) : (n : ℕ) → n ≤ cfg0.N → sProp 𝕄
  | 0, _ => iprop(∃ d, owns (c : Thread nD τ) scM fullShare d)
  | n + 1, hn => owns (c : Thread nD τ) scM fullShare ((stateAt m c n hn).2)

theorem PhiS_zero (c : Dev nD) (n : ℕ) (h : n ≤ cfg0.N) (hz : n = 0) : PhiS m c n h = iprop(∃ d, owns (c : Thread nD τ) scM fullShare d) := by
  subst hz; rfl

theorem PhiS_succ (c : Dev nD) (n : ℕ) (hn : n < cfg0.N) :
    PhiS m c (n + 1) hn = owns (c : Thread nD τ) scM fullShare ((stateAt m c n hn).2) := rfl

theorem PhiS_pos (c : Dev nD) (n : ℕ) (h : n ≤ cfg0.N) (hz : n ≠ 0) :
    PhiS m c n h = owns (c : Thread nD τ) scM fullShare ((stateAt m c (n - 1) (by omega)).2) := by
  cases n with
  | zero => exact absurd rfl hz
  | succ n => rfl

/-! ## The pipeline's proof data -/

/-- The proof data on core `c`. The adjacency matrix's array is held by its two windows in halves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (stateAt m c t.val t.isLt).1
  Φ t := PhiS m c t.val (Nat.le_of_lt_succ t.isLt)
  q w := match w with
    | ⟨0, _⟩ => fullShare
    | ⟨1, _⟩ => fullShare
    | ⟨2, _⟩ => fullShare
    | ⟨3, _⟩ => fullShare.left
    | ⟨4, _⟩ => fullShare.right
    | ⟨5, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = (stateAt m c t.val t.isLt).1 := by dsimp only [dats]

theorem before_0 (c : Dev nD) (t : Fin cfg0.N) (d) : (dats m 0 c).before 0 t d = iblk m c 0 t := before0_of m (dats m 0 c) (A_eq m c 0) (after_0 m c) t d
theorem before_1 (c : Dev nD) (t : Fin cfg0.N) (d) : (dats m 0 c).before 1 t d = iblk m c 1 t := before1_of m (dats m 0 c) (A_eq m c 1) (after_1 m c) t d
theorem before_2 (c : Dev nD) (t : Fin cfg0.N) (d) : (dats m 0 c).before 2 t d = iblk m c 2 t := before2_of m (dats m 0 c) (A_eq m c 2) (after_2 m c) t d
theorem before_3 (c : Dev nD) (t : Fin cfg0.N) (d) : (dats m 0 c).before 3 t d = iblk m c 3 t := before3_of m (dats m 0 c) (A_eq m c 3) (after_3 m c) t d
theorem before_4 (c : Dev nD) (t : Fin cfg0.N) (d) : (dats m 0 c).before 4 t d = iblk m c 4 t := before4_of m (dats m 0 c) (A_eq m c 4) (after_4 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves_eq (c : Dev nD) (t : Fin cfg0.N) (w : Fin cfg0.W) :
    (dats m 0 c).leavesExact w t = owns (c : Thread nD τ) ((cfg0.win w).stage (cfg0.slots t w)) fullShare ((dats m 0 c).after w t) := by
  unfold Dat.leavesExact; rw [liveAt w]

set_option maxHeartbeats 4000000 in
/-- The body at any point: the inputs' memrefs hold their blocks; at the first point the scratch holds anything and
    the run that fills it applies; at a later point it holds what the point before left and the run that keeps it applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl]
  rw [show (dats m 0 c).Φ t.succ = PhiS m c (t.val + 1) t.isLt from rfl, PhiS_succ]
  rw [leaves_eq m c t 0, leaves_eq m c t 1, leaves_eq m c t 2, leaves_eq m c t 3, leaves_eq m c t 4, leaves_eq m c t 5,
    after_0, after_1, after_2, after_3, after_4, after_5]
  by_cases hz : t.val = 0
  · rw [stateAt_first m c t hz]
    unfold outFirst supOf; (try dsimp only)
    rw [PhiS_castSucc m c t, PhiS_zero m c _ _ hz]
    iintro ⟨HS, Ho, ⟨%d0, H0⟩, ⟨%d1, H1⟩, ⟨%d2, H2⟩, ⟨%d3, H3⟩, ⟨%d4, H4⟩, ⟨%d5, H5⟩⟩
    iapply ((kernelRunFirst c (grid0.coords t) _ _ _ _ _ _ _ _ _ _ _ _ _ _ ((hcondFirst t).mpr hz) (iblk m c 0 t) (iblk m c 1 t) (iblk m c 2 t) (iblk m c 3 t) (iblk m c 4 t)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, ⟨%e5, H5⟩, ⟨%es, HS⟩⟩
    isplitl [HS]
    · unfold owns; iexists _; isplitr
      swap; · iexact HS
      ipureintro; exact View.read_writes_of_cover _ _ _ _ _ (scoverFirst c _ _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverFirst c _ _ _ _ _ _ _ _ _ _ _ _ _ _ _ _ _ _ _ _ _)
  · rw [stateAt_later m c t hz]
    unfold outLater; (try dsimp only)
    rw [PhiS_castSucc m c t, PhiS_pos m c _ _ hz]
    iintro ⟨HS, Ho, ⟨%d0, H0⟩, ⟨%d1, H1⟩, ⟨%d2, H2⟩, ⟨%d3, H3⟩, ⟨%d4, H4⟩, ⟨%d5, H5⟩⟩
    iapply ((kernelRunLater c (grid0.coords t) _ _ _ _ _ _ _ _ _ _ _ _ _ _ (fun h => hz ((hcondFirst t).mp h)) (iblk m c 0 t) (iblk m c 1 t) (iblk m c 2 t) (iblk m c 3 t) (iblk m c 4 t) _).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, ⟨%e5, H5⟩, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverLater c _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Fr

end
-- ==== Proof.FrameBits.Launch.lean ====
import proofs.«145090_g70068096467658_cont_9to1_m_110_5_alg».proof.Proof.FrameBits.Points

/-!
# The launch: the whole run of @main, and the frame

The pipeline's launch theorem for windows that may share an array asks how the buffers behind the arrays, each held
whole, make the proof data's arrays: here every array goes to its one window, except the adjacency matrix, whose
full share is split into a left and a right half for the two windows that stream it. The rest is bookkeeping:
the scratch is the only scoped buffer that is no staging buffer (it starts at anything and ends forgotten), the
only unscoped buffer that is no window's array is the unreshaped bias, which bypasses the call. The run ends with
every window's array at what the pipeline computes from the proof data; the inputs' arrays are never written, so
the four arguments end as they began.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A window's array, a whole buffer, held at a share. -/
theorem arr_pt (c : Dev nD) (w : Fin cfg0.W) (q : PosShare TreeShare) (f : Buf (Elt F) ((cfg0.win w).arr.view.loc (c : Thread nD τ))) :
    (((cfg0.win w).arr.view.loc (c : Thread nD τ)) ↦[(cfg0.win w).arr.view.set]{q} f : sProp 𝕄)
      = (((c : Thread nD τ).loc (Pipeline.arrRef spec0 w)) ↦{q} f : sProp 𝕄) := by
  rw [(arr_whole0 w).set_eq_univ]

/-- The buffers behind the arrays, each whole at the call's entry contents, are the proof data's arrays: the adjacency
    matrix's share halved between its two windows. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  classical
  unfold Pipeline.arrBufs Dat.arrays
  rw [bigSep_eq_bigSepL_of_eq [main_arg0, main_arg2, main_v0, main_arg1, main_v1] (by decide) (by decide), bigSep_W0]
  simp only [bigSepL_cons_cons, bigSepL_singleton, View.set_whole]
  rw [show (dats m 0 c).share 0 = fullShare from rfl, show (dats m 0 c).share 1 = fullShare from rfl,
    show (dats m 0 c).share 2 = fullShare from rfl, show (dats m 0 c).share 3 = fullShare.left from rfl,
    show (dats m 0 c).share 4 = fullShare.right from rfl, show (dats m 0 c).share 5 = fullShare from rfl]
  have e0 : (((View.loc (c : Thread nD τ) (View.whole main_arg0)) ↦{fullShare} (dats m 0 c).arrAt 0 0 : sProp 𝕄))
      = (((c : Thread nD τ).loc main_arg0) ↦{fullShare} V m c main_arg0) := rfl
  have e1 : (((View.loc (c : Thread nD τ) (View.whole main_arg2)) ↦{fullShare} (dats m 0 c).arrAt 1 0 : sProp 𝕄))
      = (((c : Thread nD τ).loc main_arg2) ↦{fullShare} V m c main_arg2) := rfl
  have e2 : (((View.loc (c : Thread nD τ) (View.whole main_v0)) ↦{fullShare} (dats m 0 c).arrAt 2 0 : sProp 𝕄))
      = (((c : Thread nD τ).loc main_v0) ↦{fullShare} V m c main_v0) := rfl
  have e3 : (((View.loc (c : Thread nD τ) (View.whole main_arg1)) ↦{fullShare.left} (dats m 0 c).arrAt 3 0 : sProp 𝕄))
      = (((c : Thread nD τ).loc main_arg1) ↦{fullShare.left} V m c main_arg1) := rfl
  have e4 : (((View.loc (c : Thread nD τ) (View.whole main_arg1)) ↦{fullShare.right} (dats m 0 c).arrAt 4 0 : sProp 𝕄))
      = (((c : Thread nD τ).loc main_arg1) ↦{fullShare.right} V m c main_arg1) := rfl
  have e5 : (((View.loc (c : Thread nD τ) (View.whole main_v1)) ↦{fullShare} (dats m 0 c).arrAt 5 0 : sProp 𝕄))
      = (((c : Thread nD τ).loc main_v1) ↦{fullShare} V m c main_v1) := rfl
  rw [e0, e1, e2, e3, e4, e5]
  refine BI.sep_mono_r (BI.sep_mono_r (BI.sep_mono_r ?_))
  exact (BI.sep_mono_l (pointsTo_share (PosShare.mem_left_op_right fullShare)).1).trans BI.sep_assoc

theorem hin (c : Dev nD) :
    iprop((BI.emp : sProp 𝕄) ∗ Pipeline.scopedRest (Ix := Unit) (Name := ℕ) (U := UR sig nD τ) (Lvl := ℕ) (Val := Elt F) spec0 c) ⊢ (dats m 0 c).Φ 0 := by
  rw [show (dats m 0 c).Φ 0 = PhiS m c 0 (Nat.zero_le _) from rfl, PhiS_zero m c 0 _ rfl, scopedRest_eq]
  iintro ⟨-, H⟩; iexact H

theorem hout (c : Dev nD) :
    (dats m 0 c).Φ (Fin.last cfg0.N) ⊢ iprop((BI.emp : sProp 𝕄) ∗ Pipeline.scopedRest (Ix := Unit) (Name := ℕ) (U := UR sig nD τ) (Lvl := ℕ) (Val := Elt F) spec0 c) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 25 := N_0; omega), scopedRest_eq]
  iintro H
  isplitr; · iempintro
  iexists _; iexact H

/-- What the run ends with: every window's array at what the pipeline computes from the proof data, every bypassing
    buffer as the call found it. -/
def RunPost (r : PUnit × MemSt nD τ sig (Elt F)) : Prop :=
  ∀ c : Dev nD, (∀ w, r.2.mem (((cfg0).spec w).arr.view.loc (c.tc : Thread nD τ)) = (dats m 0 c).arrAt w cfg0.N)
    ∧ ∀ b ∈ Pipeline.restRefs sig spec0, r.2.mem ((c.tc : Thread nD τ).loc b) = V m c b

set_option backward.isDefEq.respectTransparency.types false in
/-- At the compiled mesh, for any values, from any memory with zero counters: every weakly fair execution of @main
    terminates, nothing faulting, in a state satisfying `RunPost`. -/
theorem run_main : θ_run defs (onTc (τ := τ) (main (F := F))) (s₀ m ρ) (RunPost m) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := hsplit m)
    (X := fun _ => BI.emp) (Y := fun _ => BI.emp)
    (Z := fun c => Pipeline.unscopedRest (Ix := Unit) (Name := ℕ) (U := UR sig nD τ) (Lvl := ℕ) spec0 c (V m c))
    (hX := fun c => by iintro H; isplitr; · iempintro
                       iexact H)
    (hin := hin m) (hout := hout m)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h => h)

/-- info: 'Cert.Kernel.Fr.run_main' depends on axioms: [propext, Classical.choice, Quot.sound] -/
#guard_msgs in #print axioms run_main

/-- An input window's array is never written. -/
theorem arrAt_in (c : Dev nD) (w : Fin cfg0.W) (hw : (cfg0.win w).isOut = false) (n : ℕ) :
    (dats m 0 c).arrAt w n = V m c (Pipeline.arrRef spec0 w) :=
  ((dats m 0 c).arrAt_in w hw n).trans (A_eq m c w)

/-- THE FRAME: the four arguments end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans ((arrAt_in m c 0 rfl _).trans (V_main_arg0 m c)),
     ((h c).1 3).trans ((arrAt_in m c 3 rfl _).trans (V_main_arg1 m c)),
     ((h c).1 1).trans ((arrAt_in m c 1 rfl _).trans (V_main_arg2 m c)),
     ((h c).2 main_arg3 (Pipeline.mem_restRefs_of main_arg3 rfl (by decide))).trans (V_main_arg3 m c)⟩) (run_main m ρ)

end Cert.Kernel.Fr

end
-- ==== Proof.FrameIdeal.Setup.lean ====
import proofs.«145090_g70068096467658_cont_9to1_m_110_5_alg».proof.Proof.Gen.KernelIdeal.Launch
import proofs.«145090_g70068096467658_cont_9to1_m_110_5_alg».proof.Proof.Gen.KernelIdeal.Skeleton
import proofs.«145090_g70068096467658_cont_9to1_m_110_5_alg».proof.Proof.Gen.KernelIdeal.Points
import Idealize.ShloMosaic.Lib.Pipeline.FrameBody
import Idealize.ShloMosaic.Lib.Ring
import Idealize.ShloMosaic.Lib.Tactic

/-!
# What the grid's points share

The one pipelined call walks 25 points; point `t` reads rows `400 t … 400 t + 399` of the adjacency matrix as two
blocks of 200 rows (two windows on the one array), the whole of `x`, the weight and the bias row (their windows
never move), and writes rows `400 t … 400 t + 399` of the result. The first point also fills a scratch buffer with
`x · W`, which every later point reads. This module fixes the vocabulary the per-point runs are stated over: the
arrays as the call finds them, each window's block at a point, the test "this is the first point", and the
staging memrefs a point is called with.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the call -/

/-- Core `c`'s buffers when the call is entered: the launch contents after the one host line (the bias reshaped to a row). -/
abbrev V (c : Dev nD) (b : Ref sig .tc) : Buf (Elt F) ((c : Thread nD τ).loc b) :=
  StableHlo.after hostOps0 (fun b => m (c, b)) (Proc.devRef .tc b)

theorem hostOps0_fresh : (hostOps0 : List (HloOp τ sig (Elt F))).Forall fun op => op.fresh = ∅ := by
  simp only [List.Forall]; repeat' constructor

/-- @main is that line, then the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host line writes only the bias row: the four arguments are as launched. -/
theorem V_main_arg0 (c : Dev nD) : V m c main_arg0 = m ((c : Thread nD τ).loc main_arg0) := by
  dsimp only [V, hostOps0]; after_results
theorem V_main_arg1 (c : Dev nD) : V m c main_arg1 = m ((c : Thread nD τ).loc main_arg1) := by
  dsimp only [V, hostOps0]; after_results
theorem V_main_arg2 (c : Dev nD) : V m c main_arg2 = m ((c : Thread nD τ).loc main_arg2) := by
  dsimp only [V, hostOps0]; after_results
theorem V_main_arg3 (c : Dev nD) : V m c main_arg3 = m ((c : Thread nD τ).loc main_arg3) := by
  dsimp only [V, hostOps0]; after_results

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof data
    over these arrays whose body leaves the block in place: an unfetched window's block index has not moved. One
    statement per input window (the block's shape is a literal only at a literal window). -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The first point -/

/-- The body's one branch: "the grid coordinate is 0", as the kernel computes it. -/
abbrev condFirst (i : grid0.Coords) : Prop := (Scalar.cmpi .ne (Scalar.extui (Scalar.cmpi .eq (BitVec.ofNat 32 (i 0).val) 0#32)) 0#32) = 1#1
/-- It holds at point 0 and at no other — decided over the 25 points. -/
theorem hcondFirst : ∀ t : Fin cfg0.N, condFirst (grid0.coords t) ↔ t.val = 0 :=
  (by decide +kernel : ∀ t : Fin grid0.N, condFirst (grid0.coords t) ↔ t.val = 0)

/-- No window is ever idle. -/
theorem liveAt (w : Fin cfg0.W) : ∀ i, cfg0.idle w i = false := fun _ => rfl

/-! ## The memrefs a point is called with -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S200x10000 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S200x10000 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S400x128 .f32 := win0_5.stage (cfg0.slots t 5)
abbrev hs5 (t : Fin cfg0.N) : (ms5 t).IsWhole := hstage0_5 ((cfg0.slots t 5).cast nbuf0_5)
/-- The scratch that carries `x · W` from the first point on: a whole scoped buffer of the kernel's own. -/
abbrev scM : Memref sig .tc .vmem S10000x128 .bf16 := Memref.whole cc0_scratch0
/-- One staging buffer of the result window and the scratch, as views: contents are stated through them. -/
abbrev VO : View sig .tc .vmem S400x128 .f32 := (Memref.whole cc0_stg5_0 : Memref sig .tc .vmem S400x128 .f32).view
abbrev VS : View sig .tc .vmem S10000x128 .bf16 := scM.view

/-- The core's scoped buffers that are no staging buffer: the scratch, owned at some contents. -/
theorem scopedRest_eq (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

end Cert.KernelIdeal.Fr

end
-- ==== Proof.FrameIdeal.RunFirst.lean ====
import proofs.«145090_g70068096467658_cont_9to1_m_110_5_alg».proof.Proof.FrameIdeal.Setup

/-!
# The body at the first point

At the grid's first point the branch is taken: the body loads `x` and the weight, stores `x · W` (rounded to the
scratch's format) over the whole scratch, reads it back, and then does what every point does — two products of a
200-row block of the adjacency matrix with the scratch, each blended with the matching 200 rows of `x`, normalised
row by row, shifted by the bias and stored into one half of the result block. The run is stated on any whole
staging memrefs: the five inputs at given contents, the result block and the scratch at anything; it ends with
the inputs as they were and the result block and the scratch each overwritten by a list of stores, which the run
itself finds.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores the body leaves in the result block and in the scratch (last first), with the run that leaves them. -/
noncomputable def kernelRunFirst (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x128 .f32) (harg6 : arg6.IsWhole) (arg7 : Memref sig .tc .vmem S10000x128 .bf16) (harg7 : arg7.IsWhole) (hc : condFirst i)
    (x0 : Vec F S10000x128 .f32) (x1 : Vec F S128x128 .f32) (x2 : Vec F S1x128 .f32) (x3 : Vec F S200x10000 .f32) (x4 : Vec F S200x10000 .f32) :
    Σ' (L5 : List (View.Piece (Elt F) S400x128 .f32)), { LS : List (View.Piece (Elt F) S10000x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS)) -∗ K ⟨⟩))
          ⊢ wp frame (wpE (defs₀ (F := F)) Variants.none c none) E (cc0__body i arg1 harg1 arg2 harg2 arg3 harg3 arg4 harg4 arg5 harg5 arg6 harg6 arg7 harg7) K } := by
  refine ⟨?_, ?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds, %fs, -, HS⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS

end Cert.KernelIdeal.Fr

end
-- ==== Proof.FrameIdeal.RunLater.lean ====
import proofs.«145090_g70068096467658_cont_9to1_m_110_5_alg».proof.Proof.FrameIdeal.RunFirst

/-!
# The body at a later point

After the first point the branch is not taken: the scratch is only read. The run is stated on any whole staging
memrefs with the scratch at given contents `xs`, which it ends with unchanged; the result block ends overwritten by
the two half-block stores, found by the run.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores the body leaves in the result block (last first), with the run that leaves them. -/
noncomputable def kernelRunLater (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x128 .f32) (harg6 : arg6.IsWhole) (arg7 : Memref sig .tc .vmem S10000x128 .bf16) (harg7 : arg7.IsWhole) (hc : ¬condFirst i)
    (x0 : Vec F S10000x128 .f32) (x1 : Vec F S128x128 .f32) (x2 : Vec F S1x128 .f32) (x3 : Vec F S200x10000 .f32) (x4 : Vec F S200x10000 .f32) (xs : Vec F S10000x128 .bf16) :
    { L5 : List (View.Piece (Elt F) S400x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ owns (c : Thread nD τ) arg7 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5) ∗ owns (c : Thread nD τ) arg7 fullShare xs) -∗ K ⟨⟩))
          ⊢ wp frame (wpE (defs₀ (F := F)) Variants.none c none) E (cc0__body i arg1 harg1 arg2 harg2 arg3 harg3 arg4 harg4 arg5 harg5 arg6 harg6 arg7 harg7) K } := by
  refine ⟨?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; isplitr; · ipureintro; exact harg7.read_unread _
    iexact HS

end Cert.KernelIdeal.Fr

end
-- ==== Proof.FrameIdeal.Points.lean ====
import proofs.«145090_g70068096467658_cont_9to1_m_110_5_alg».proof.Proof.FrameIdeal.RunLater

/-!
# Point by point: what the result block and the scratch hold, and the body's obligation

After the first point the scratch holds what that point's stores left (`x · W`); every later point leaves it as it
found it. After point `t` the result window's staging buffer holds the two half-block stores of that point, computed
from the point's two adjacency blocks, the rows of `x` it reads, the bias row and the scratch. `stateAt` says both by
recursion on the point. The proof data of the pipeline then are: the arrays as the call finds them; each input
window left at its block; the result window at `stateAt`'s first component; between points the scratch at
`stateAt`'s second component (at anything before the first point). The adjacency matrix is read through two windows,
so its array is held in two halves, one per window.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The stores cover their buffers -/

theorem scoverFirst (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x128 .f32) (harg6 : arg6.IsWhole) (arg7 : Memref sig .tc .vmem S10000x128 .bf16) (harg7 : arg7.IsWhole) (hc : condFirst i) (x0 : Vec F S10000x128 .f32) (x1 : Vec F S128x128 .f32) (x2 : Vec F S1x128 .f32) (x3 : Vec F S200x10000 .f32) (x4 : Vec F S200x10000 .f32) (y : S10000x128.Idx) :
    ∃ pc ∈ (kernelRunFirst c i arg1 harg1 arg2 harg2 arg3 harg3 arg4 harg4 arg5 harg5 arg6 harg6 arg7 harg7 hc x0 x1 x2 x3 x4).2.1, y ∈ pc.1.set :=
  View.cover_of_tiledL (kernelRunFirst c i arg1 harg1 arg2 harg2 arg3 harg3 arg4 harg4 arg5 harg5 arg6 harg6 arg7 harg7 hc x0 x1 x2 x3 x4).2.1 S10000x128.size (by sl_kernel_rfl) y

theorem coverFirst (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x128 .f32) (harg6 : arg6.IsWhole) (arg7 : Memref sig .tc .vmem S10000x128 .bf16) (harg7 : arg7.IsWhole) (hc : condFirst i) (x0 : Vec F S10000x128 .f32) (x1 : Vec F S128x128 .f32) (x2 : Vec F S1x128 .f32) (x3 : Vec F S200x10000 .f32) (x4 : Vec F S200x10000 .f32) (y : S400x128.Idx) :
    ∃ pc ∈ (kernelRunFirst c i arg1 harg1 arg2 harg2 arg3 harg3 arg4 harg4 arg5 harg5 arg6 harg6 arg7 harg7 hc x0 x1 x2 x3 x4).1, y ∈ pc.1.set :=
  View.cover_of_tiledL (kernelRunFirst c i arg1 harg1 arg2 harg2 arg3 harg3 arg4 harg4 arg5 harg5 arg6 harg6 arg7 harg7 hc x0 x1 x2 x3 x4).1 S200x128.size (by sl_kernel_rfl) y

theorem coverLater (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x128 .f32) (harg6 : arg6.IsWhole) (arg7 : Memref sig .tc .vmem S10000x128 .bf16) (harg7 : arg7.IsWhole) (hc : ¬condFirst i) (x0 : Vec F S10000x128 .f32) (x1 : Vec F S128x128 .f32) (x2 : Vec F S1x128 .f32) (x3 : Vec F S200x10000 .f32) (x4 : Vec F S200x10000 .f32) (xs : Vec F S10000x128 .bf16) (y : S400x128.Idx) :
    ∃ pc ∈ (kernelRunLater c i arg1 harg1 arg2 harg2 arg3 harg3 arg4 harg4 arg5 harg5 arg6 harg6 arg7 harg7 hc x0 x1 x2 x3 x4 xs).1, y ∈ pc.1.set :=
  View.cover_of_tiledL (kernelRunLater c i arg1 harg1 arg2 harg2 arg3 harg3 arg4 harg4 arg5 harg5 arg6 harg6 arg7 harg7 hc x0 x1 x2 x3 x4 xs).1 S200x128.size (by sl_kernel_rfl) y

/-- What the first point leaves in the scratch: its stores read back. -/
def supOf (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x128 .f32) (harg6 : arg6.IsWhole) (arg7 : Memref sig .tc .vmem S10000x128 .bf16) (harg7 : arg7.IsWhole) (hc : condFirst i) (x0 : Vec F S10000x128 .f32) (x1 : Vec F S128x128 .f32) (x2 : Vec F S1x128 .f32) (x3 : Vec F S200x10000 .f32) (x4 : Vec F S200x10000 .f32) : Vec F S10000x128 .bf16 :=
  VS.read (Elt F) (VS.writes (Elt F) VS.junk (kernelRunFirst c i arg1 harg1 arg2 harg2 arg3 harg3 arg4 harg4 arg5 harg5 arg6 harg6 arg7 harg7 hc x0 x1 x2 x3 x4).2.1)

/-- What the first point leaves in the result block. -/
def outFirst (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x128 .f32) (harg6 : arg6.IsWhole) (arg7 : Memref sig .tc .vmem S10000x128 .bf16) (harg7 : arg7.IsWhole) (hc : condFirst i) (x0 : Vec F S10000x128 .f32) (x1 : Vec F S128x128 .f32) (x2 : Vec F S1x128 .f32) (x3 : Vec F S200x10000 .f32) (x4 : Vec F S200x10000 .f32) : Vec F S400x128 .f32 :=
  VO.read (Elt F) (VO.writes (Elt F) VO.junk (kernelRunFirst c i arg1 harg1 arg2 harg2 arg3 harg3 arg4 harg4 arg5 harg5 arg6 harg6 arg7 harg7 hc x0 x1 x2 x3 x4).1)

/-- What a later point leaves in the result block, the scratch holding `xs`. -/
def outLater (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x128 .f32) (harg6 : arg6.IsWhole) (arg7 : Memref sig .tc .vmem S10000x128 .bf16) (harg7 : arg7.IsWhole) (hc : ¬condFirst i) (x0 : Vec F S10000x128 .f32) (x1 : Vec F S128x128 .f32) (x2 : Vec F S1x128 .f32) (x3 : Vec F S200x10000 .f32) (x4 : Vec F S200x10000 .f32) (xs : Vec F S10000x128 .bf16) : Vec F S400x128 .f32 :=
  VO.read (Elt F) (VO.writes (Elt F) VO.junk (kernelRunLater c i arg1 harg1 arg2 harg2 arg3 harg3 arg4 harg4 arg5 harg5 arg6 harg6 arg7 harg7 hc x0 x1 x2 x3 x4 xs).1)

/-! ## After each point -/

/-- The result window's staging buffer and the scratch after the body at position `n`. -/
def stateAt (c : Dev nD) : (n : ℕ) → n < cfg0.N → Vec F S400x128 .f32 × Vec F S10000x128 .bf16
  | 0, hn => (outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) scM (Memref.isWhole_whole _) ((hcondFirst ⟨0, hn⟩).mpr rfl) (iblk m c 0 ⟨0, hn⟩) (iblk m c 1 ⟨0, hn⟩) (iblk m c 2 ⟨0, hn⟩) (iblk m c 3 ⟨0, hn⟩) (iblk m c 4 ⟨0, hn⟩),
      supOf c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) scM (Memref.isWhole_whole _) ((hcondFirst ⟨0, hn⟩).mpr rfl) (iblk m c 0 ⟨0, hn⟩) (iblk m c 1 ⟨0, hn⟩) (iblk m c 2 ⟨0, hn⟩) (iblk m c 3 ⟨0, hn⟩) (iblk m c 4 ⟨0, hn⟩))
  | n + 1, hn => (outLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) scM (Memref.isWhole_whole _) (fun h => Nat.succ_ne_zero n ((hcondFirst ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (stateAt c n (Nat.lt_of_succ_lt hn)).2,
      (stateAt c n (Nat.lt_of_succ_lt hn)).2)

theorem stateAt_first (c : Dev nD) (t : Fin cfg0.N) (hz : t.val = 0) :
    stateAt m c t.val t.isLt = (outFirst c (grid0.coords t) (ms0 t) (hs0 t) (ms1 t) (hs1 t) (ms2 t) (hs2 t) (ms3 t) (hs3 t) (ms4 t) (hs4 t) (ms5 t) (hs5 t) scM (Memref.isWhole_whole _) ((hcondFirst t).mpr hz) (iblk m c 0 t) (iblk m c 1 t) (iblk m c 2 t) (iblk m c 3 t) (iblk m c 4 t),
      supOf c (grid0.coords t) (ms0 t) (hs0 t) (ms1 t) (hs1 t) (ms2 t) (hs2 t) (ms3 t) (hs3 t) (ms4 t) (hs4 t) (ms5 t) (hs5 t) scM (Memref.isWhole_whole _) ((hcondFirst t).mpr hz) (iblk m c 0 t) (iblk m c 1 t) (iblk m c 2 t) (iblk m c 3 t) (iblk m c 4 t)) := by
  obtain ⟨n, hn⟩ := t
  cases n with
  | zero => rfl
  | succ n => exact absurd hz (Nat.succ_ne_zero n)

theorem stateAt_later (c : Dev nD) (t : Fin cfg0.N) (hz : t.val ≠ 0) :
    stateAt m c t.val t.isLt = (outLater c (grid0.coords t) (ms0 t) (hs0 t) (ms1 t) (hs1 t) (ms2 t) (hs2 t) (ms3 t) (hs3 t) (ms4 t) (hs4 t) (ms5 t) (hs5 t) scM (Memref.isWhole_whole _) (fun h => hz ((hcondFirst t).mp h)) (iblk m c 0 t) (iblk m c 1 t) (iblk m c 2 t) (iblk m c 3 t) (iblk m c 4 t) (stateAt m c (t.val - 1) (Nat.lt_of_le_of_lt (Nat.sub_le _ _) t.isLt)).2,
      (stateAt m c (t.val - 1) (Nat.lt_of_le_of_lt (Nat.sub_le _ _) t.isLt)).2) := by
  obtain ⟨n, hn⟩ := t
  cases n with
  | zero => exact absurd rfl hz
  | succ n => rfl

/-- Between points: before the first the scratch holds anything; afterwards what the point before left. -/
def PhiS (c : Dev nD) : (n : ℕ) → n ≤ cfg0.N → sProp 𝕄
  | 0, _ => iprop(∃ d, owns (c : Thread nD τ) scM fullShare d)
  | n + 1, hn => owns (c : Thread nD τ) scM fullShare ((stateAt m c n hn).2)

theorem PhiS_zero (c : Dev nD) (n : ℕ) (h : n ≤ cfg0.N) (hz : n = 0) : PhiS m c n h = iprop(∃ d, owns (c : Thread nD τ) scM fullShare d) := by
  subst hz; rfl

theorem PhiS_succ (c : Dev nD) (n : ℕ) (hn : n < cfg0.N) :
    PhiS m c (n + 1) hn = owns (c : Thread nD τ) scM fullShare ((stateAt m c n hn).2) := rfl

theorem PhiS_pos (c : Dev nD) (n : ℕ) (h : n ≤ cfg0.N) (hz : n ≠ 0) :
    PhiS m c n h = owns (c : Thread nD τ) scM fullShare ((stateAt m c (n - 1) (by omega)).2) := by
  cases n with
  | zero => exact absurd rfl hz
  | succ n => rfl

/-! ## The pipeline's proof data -/

/-- The proof data on core `c`. The adjacency matrix's array is held by its two windows in halves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (stateAt m c t.val t.isLt).1
  Φ t := PhiS m c t.val (Nat.le_of_lt_succ t.isLt)
  q w := match w with
    | ⟨0, _⟩ => fullShare
    | ⟨1, _⟩ => fullShare
    | ⟨2, _⟩ => fullShare
    | ⟨3, _⟩ => fullShare.left
    | ⟨4, _⟩ => fullShare.right
    | ⟨5, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = (stateAt m c t.val t.isLt).1 := by dsimp only [dats]

theorem before_0 (c : Dev nD) (t : Fin cfg0.N) (d) : (dats m 0 c).before 0 t d = iblk m c 0 t := before0_of m (dats m 0 c) (A_eq m c 0) (after_0 m c) t d
theorem before_1 (c : Dev nD) (t : Fin cfg0.N) (d) : (dats m 0 c).before 1 t d = iblk m c 1 t := before1_of m (dats m 0 c) (A_eq m c 1) (after_1 m c) t d
theorem before_2 (c : Dev nD) (t : Fin cfg0.N) (d) : (dats m 0 c).before 2 t d = iblk m c 2 t := before2_of m (dats m 0 c) (A_eq m c 2) (after_2 m c) t d
theorem before_3 (c : Dev nD) (t : Fin cfg0.N) (d) : (dats m 0 c).before 3 t d = iblk m c 3 t := before3_of m (dats m 0 c) (A_eq m c 3) (after_3 m c) t d
theorem before_4 (c : Dev nD) (t : Fin cfg0.N) (d) : (dats m 0 c).before 4 t d = iblk m c 4 t := before4_of m (dats m 0 c) (A_eq m c 4) (after_4 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves_eq (c : Dev nD) (t : Fin cfg0.N) (w : Fin cfg0.W) :
    (dats m 0 c).leavesExact w t = owns (c : Thread nD τ) ((cfg0.win w).stage (cfg0.slots t w)) fullShare ((dats m 0 c).after w t) := by
  unfold Dat.leavesExact; rw [liveAt w]

set_option maxHeartbeats 4000000 in
/-- The body at any point: the inputs' memrefs hold their blocks; at the first point the scratch holds anything and
    the run that fills it applies; at a later point it holds what the point before left and the run that keeps it applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl]
  rw [show (dats m 0 c).Φ t.succ = PhiS m c (t.val + 1) t.isLt from rfl, PhiS_succ]
  rw [leaves_eq m c t 0, leaves_eq m c t 1, leaves_eq m c t 2, leaves_eq m c t 3, leaves_eq m c t 4, leaves_eq m c t 5,
    after_0, after_1, after_2, after_3, after_4, after_5]
  by_cases hz : t.val = 0
  · rw [stateAt_first m c t hz]
    unfold outFirst supOf; (try dsimp only)
    rw [PhiS_castSucc m c t, PhiS_zero m c _ _ hz]
    iintro ⟨HS, Ho, ⟨%d0, H0⟩, ⟨%d1, H1⟩, ⟨%d2, H2⟩, ⟨%d3, H3⟩, ⟨%d4, H4⟩, ⟨%d5, H5⟩⟩
    iapply ((kernelRunFirst c (grid0.coords t) _ _ _ _ _ _ _ _ _ _ _ _ _ _ ((hcondFirst t).mpr hz) (iblk m c 0 t) (iblk m c 1 t) (iblk m c 2 t) (iblk m c 3 t) (iblk m c 4 t)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, ⟨%e5, H5⟩, ⟨%es, HS⟩⟩
    isplitl [HS]
    · unfold owns; iexists _; isplitr
      swap; · iexact HS
      ipureintro; exact View.read_writes_of_cover _ _ _ _ _ (scoverFirst c _ _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverFirst c _ _ _ _ _ _ _ _ _ _ _ _ _ _ _ _ _ _ _ _ _)
  · rw [stateAt_later m c t hz]
    unfold outLater; (try dsimp only)
    rw [PhiS_castSucc m c t, PhiS_pos m c _ _ hz]
    iintro ⟨HS, Ho, ⟨%d0, H0⟩, ⟨%d1, H1⟩, ⟨%d2, H2⟩, ⟨%d3, H3⟩, ⟨%d4, H4⟩, ⟨%d5, H5⟩⟩
    iapply ((kernelRunLater c (grid0.coords t) _ _ _ _ _ _ _ _ _ _ _ _ _ _ (fun h => hz ((hcondFirst t).mp h)) (iblk m c 0 t) (iblk m c 1 t) (iblk m c 2 t) (iblk m c 3 t) (iblk m c 4 t) _).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, ⟨%e5, H5⟩, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverLater c _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Fr

end
-- ==== Proof.FrameIdeal.Launch.lean ====
import proofs.«145090_g70068096467658_cont_9to1_m_110_5_alg».proof.Proof.FrameIdeal.Points

/-!
# The launch: the whole run of @main, and the frame

The pipeline's launch theorem for windows that may share an array asks how the buffers behind the arrays, each held
whole, make the proof data's arrays: here every array goes to its one window, except the adjacency matrix, whose
full share is split into a left and a right half for the two windows that stream it. The rest is bookkeeping:
the scratch is the only scoped buffer that is no staging buffer (it starts at anything and ends forgotten), the
only unscoped buffer that is no window's array is the unreshaped bias, which bypasses the call. The run ends with
every window's array at what the pipeline computes from the proof data; the inputs' arrays are never written, so
the four arguments end as they began.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A window's array, a whole buffer, held at a share. -/
theorem arr_pt (c : Dev nD) (w : Fin cfg0.W) (q : PosShare TreeShare) (f : Buf (Elt F) ((cfg0.win w).arr.view.loc (c : Thread nD τ))) :
    (((cfg0.win w).arr.view.loc (c : Thread nD τ)) ↦[(cfg0.win w).arr.view.set]{q} f : sProp 𝕄)
      = (((c : Thread nD τ).loc (Pipeline.arrRef spec0 w)) ↦{q} f : sProp 𝕄) := by
  rw [(arr_whole0 w).set_eq_univ]

/-- The buffers behind the arrays, each whole at the call's entry contents, are the proof data's arrays: the adjacency
    matrix's share halved between its two windows. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  classical
  unfold Pipeline.arrBufs Dat.arrays
  rw [bigSep_eq_bigSepL_of_eq [main_arg0, main_arg2, main_v0, main_arg1, main_v1] (by decide) (by decide), bigSep_W0]
  simp only [bigSepL_cons_cons, bigSepL_singleton, View.set_whole]
  rw [show (dats m 0 c).share 0 = fullShare from rfl, show (dats m 0 c).share 1 = fullShare from rfl,
    show (dats m 0 c).share 2 = fullShare from rfl, show (dats m 0 c).share 3 = fullShare.left from rfl,
    show (dats m 0 c).share 4 = fullShare.right from rfl, show (dats m 0 c).share 5 = fullShare from rfl]
  have e0 : (((View.loc (c : Thread nD τ) (View.whole main_arg0)) ↦{fullShare} (dats m 0 c).arrAt 0 0 : sProp 𝕄))
      = (((c : Thread nD τ).loc main_arg0) ↦{fullShare} V m c main_arg0) := rfl
  have e1 : (((View.loc (c : Thread nD τ) (View.whole main_arg2)) ↦{fullShare} (dats m 0 c).arrAt 1 0 : sProp 𝕄))
      = (((c : Thread nD τ).loc main_arg2) ↦{fullShare} V m c main_arg2) := rfl
  have e2 : (((View.loc (c : Thread nD τ) (View.whole main_v0)) ↦{fullShare} (dats m 0 c).arrAt 2 0 : sProp 𝕄))
      = (((c : Thread nD τ).loc main_v0) ↦{fullShare} V m c main_v0) := rfl
  have e3 : (((View.loc (c : Thread nD τ) (View.whole main_arg1)) ↦{fullShare.left} (dats m 0 c).arrAt 3 0 : sProp 𝕄))
      = (((c : Thread nD τ).loc main_arg1) ↦{fullShare.left} V m c main_arg1) := rfl
  have e4 : (((View.loc (c : Thread nD τ) (View.whole main_arg1)) ↦{fullShare.right} (dats m 0 c).arrAt 4 0 : sProp 𝕄))
      = (((c : Thread nD τ).loc main_arg1) ↦{fullShare.right} V m c main_arg1) := rfl
  have e5 : (((View.loc (c : Thread nD τ) (View.whole main_v1)) ↦{fullShare} (dats m 0 c).arrAt 5 0 : sProp 𝕄))
      = (((c : Thread nD τ).loc main_v1) ↦{fullShare} V m c main_v1) := rfl
  rw [e0, e1, e2, e3, e4, e5]
  refine BI.sep_mono_r (BI.sep_mono_r (BI.sep_mono_r ?_))
  exact (BI.sep_mono_l (pointsTo_share (PosShare.mem_left_op_right fullShare)).1).trans BI.sep_assoc

theorem hin (c : Dev nD) :
    iprop((BI.emp : sProp 𝕄) ∗ Pipeline.scopedRest (Ix := Unit) (Name := ℕ) (U := UR sig nD τ) (Lvl := ℕ) (Val := Elt F) spec0 c) ⊢ (dats m 0 c).Φ 0 := by
  rw [show (dats m 0 c).Φ 0 = PhiS m c 0 (Nat.zero_le _) from rfl, PhiS_zero m c 0 _ rfl, scopedRest_eq]
  iintro ⟨-, H⟩; iexact H

theorem hout (c : Dev nD) :
    (dats m 0 c).Φ (Fin.last cfg0.N) ⊢ iprop((BI.emp : sProp 𝕄) ∗ Pipeline.scopedRest (Ix := Unit) (Name := ℕ) (U := UR sig nD τ) (Lvl := ℕ) (Val := Elt F) spec0 c) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 25 := N_0; omega), scopedRest_eq]
  iintro H
  isplitr; · iempintro
  iexists _; iexact H

/-- What the run ends with: every window's array at what the pipeline computes from the proof data, every bypassing
    buffer as the call found it. -/
def RunPost (r : PUnit × MemSt nD τ sig (Elt F)) : Prop :=
  ∀ c : Dev nD, (∀ w, r.2.mem (((cfg0).spec w).arr.view.loc (c.tc : Thread nD τ)) = (dats m 0 c).arrAt w cfg0.N)
    ∧ ∀ b ∈ Pipeline.restRefs sig spec0, r.2.mem ((c.tc : Thread nD τ).loc b) = V m c b

set_option backward.isDefEq.respectTransparency.types false in
/-- At the compiled mesh, for any values, from any memory with zero counters: every weakly fair execution of @main
    terminates, nothing faulting, in a state satisfying `RunPost`. -/
theorem run_main : θ_run defs (onTc (τ := τ) (main (F := F))) (s₀ m ρ) (RunPost m) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := hsplit m)
    (X := fun _ => BI.emp) (Y := fun _ => BI.emp)
    (Z := fun c => Pipeline.unscopedRest (Ix := Unit) (Name := ℕ) (U := UR sig nD τ) (Lvl := ℕ) spec0 c (V m c))
    (hX := fun c => by iintro H; isplitr; · iempintro
                       iexact H)
    (hin := hin m) (hout := hout m)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h => h)

/-- info: 'Cert.KernelIdeal.Fr.run_main' depends on axioms: [propext, Classical.choice, Quot.sound] -/
#guard_msgs in #print axioms run_main

/-- An input window's array is never written. -/
theorem arrAt_in (c : Dev nD) (w : Fin cfg0.W) (hw : (cfg0.win w).isOut = false) (n : ℕ) :
    (dats m 0 c).arrAt w n = V m c (Pipeline.arrRef spec0 w) :=
  ((dats m 0 c).arrAt_in w hw n).trans (A_eq m c w)

/-- THE FRAME: the four arguments end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans ((arrAt_in m c 0 rfl _).trans (V_main_arg0 m c)),
     ((h c).1 3).trans ((arrAt_in m c 3 rfl _).trans (V_main_arg1 m c)),
     ((h c).1 1).trans ((arrAt_in m c 1 rfl _).trans (V_main_arg2 m c)),
     ((h c).2 main_arg3 (Pipeline.mem_restRefs_of main_arg3 rfl (by decide))).trans (V_main_arg3 m c)⟩) (run_main m ρ)

end Cert.KernelIdeal.Fr

end
-- ==== Proof.ValueIdeal.Blocks.lean ====
import proofs.«145090_g70068096467658_cont_9to1_m_110_5_alg».proof.Proof.FrameIdeal.Points
import Idealize.ShloMosaic.Lib.Pipeline.Value

/-!
# The stores read as values

The lists of stores the two runs found are read here as plain functions. The first point's scratch holds
`k0_pay2 x w`, the product `x · W` as the body computes it. The result block of any point is the overlay of two
half-block stores (`outBlock`): rows 0–199 hold the payload of the first adjacency block, rows 200–399 that of the
second, each over the matching 200 rows of `x`, the bias row and the scratch. At the first point the scratch the
payloads read is what that very point stored. Since the windows of `x`, the weight and the bias row never move, their
blocks are the arrays themselves; so the scratch holds `k0_pay2` of the arrays from the first point on, and the
result block after point `t` is `outBlock` of the arrays, the point's two adjacency blocks and that scratch.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable [∀ e, Nonempty (Elt F e)]

theorem hz2 : (![0, 0] : Fin 2 → Nat) = fun _ => 0 := funext fun a => by fin_cases a <;> rfl

/-- The result block a point leaves: two half-block stores, the later one (rows 200–399) first. `s` is the scratch
    the payloads read, `x0` the whole of `x`, `x2` the bias row, `x3` / `x4` the two adjacency blocks. -/
def outBlock (i : grid0.Coords) (x0 : Vec F S10000x128 .f32) (x2 : Vec F S1x128 .f32) (x3 x4 : Vec F S200x10000 .f32)
    (s : Vec F S10000x128 .bf16) : Vec F S400x128 .f32 :=
  View.canon [⟨Rect.unit ![200, 0] S200x128.size inb_S400x128_S200x128_200_0,
      k0_pay1 (k0_pay3 x2) (k0_pay5 s x4) (View.ld x0 (Rect.unit (k0_off1 i 1#32) S200x128.size (k0_off1_inb i 1)))⟩,
    ⟨Rect.unit ![0, 0] S200x128.size inb_S400x128_S200x128_0_0,
      k0_pay4 s x2 x3 (View.ld x0 (Rect.unit (k0_off1 i 0#32) S200x128.size (k0_off1_inb i 0)))⟩]

/-- The first point's one store covers the scratch: it holds the stored product. -/
theorem supOf_eq (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x128 .f32) (harg6 : arg6.IsWhole) (arg7 : Memref sig .tc .vmem S10000x128 .bf16) (harg7 : arg7.IsWhole) (hc : condFirst i) (x0 : Vec F S10000x128 .f32) (x1 : Vec F S128x128 .f32) (x2 : Vec F S1x128 .f32) (x3 : Vec F S200x10000 .f32) (x4 : Vec F S200x10000 .f32) :
    supOf c i arg1 harg1 arg2 harg2 arg3 harg3 arg4 harg4 arg5 harg5 arg6 harg6 arg7 harg7 hc x0 x1 x2 x3 x4 = k0_pay2 x0 x1 := by
  unfold supOf
  rw [View.read_writes_junk_eq_canon]
  unfold kernelRunFirst
  dsimp only
  sl_unfold_run_names
  rw [View.canon_unit_zero hz2]
  simp only [View.readAt_eq_ld, harg1.read_unread, harg2.read_unread, View.ld_unit_zero (S := S10000x128) hz2,
    View.ld_unit_zero (S := S128x128) hz2]

/-- The first point's result block: the scratch its payloads read back is the product it has just stored. -/
theorem outFirst_eq (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x128 .f32) (harg6 : arg6.IsWhole) (arg7 : Memref sig .tc .vmem S10000x128 .bf16) (harg7 : arg7.IsWhole) (hc : condFirst i) (x0 : Vec F S10000x128 .f32) (x1 : Vec F S128x128 .f32) (x2 : Vec F S1x128 .f32) (x3 : Vec F S200x10000 .f32) (x4 : Vec F S200x10000 .f32) :
    outFirst c i arg1 harg1 arg2 harg2 arg3 harg3 arg4 harg4 arg5 harg5 arg6 harg6 arg7 harg7 hc x0 x1 x2 x3 x4 = outBlock i x0 x2 x3 x4 (k0_pay2 x0 x1) := by
  unfold outFirst outBlock
  rw [View.read_writes_junk_eq_canon]
  unfold kernelRunFirst
  dsimp only
  sl_unfold_run_names
  simp only [View.readCov_unit_zero (S := S10000x128) _ hz2, View.readAt_eq_ld, harg1.read_unread, harg2.read_unread,
    harg3.read_unread, harg4.read_unread, harg5.read_unread, View.ld_unit_zero (S := S10000x128) hz2,
    View.ld_unit_zero (S := S128x128) hz2, View.ld_unit_zero (S := S1x128) hz2, View.ld_unit_zero (S := S200x10000) hz2]

/-- A later point's result block, over the scratch it found. -/
theorem outLater_eq (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x128 .f32) (harg6 : arg6.IsWhole) (arg7 : Memref sig .tc .vmem S10000x128 .bf16) (harg7 : arg7.IsWhole) (hc : ¬condFirst i) (x0 : Vec F S10000x128 .f32) (x1 : Vec F S128x128 .f32) (x2 : Vec F S1x128 .f32) (x3 : Vec F S200x10000 .f32) (x4 : Vec F S200x10000 .f32) (xs : Vec F S10000x128 .bf16) :
    outLater c i arg1 harg1 arg2 harg2 arg3 harg3 arg4 harg4 arg5 harg5 arg6 harg6 arg7 harg7 hc x0 x1 x2 x3 x4 xs = outBlock i x0 x2 x3 x4 xs := by
  unfold outLater outBlock
  rw [View.read_writes_junk_eq_canon]
  unfold kernelRunLater
  dsimp only
  sl_unfold_run_names
  simp only [View.readAt_eq_ld, harg1.read_unread, harg3.read_unread, harg4.read_unread, harg5.read_unread,
    harg7.read_unread, View.ld_unit_zero (S := S10000x128) hz2, View.ld_unit_zero (S := S1x128) hz2,
    View.ld_unit_zero (S := S200x10000) hz2]

/-! ## The windows that never move -/

/-- The printed index maps over the grid: the windows of `x`, the weight and the bias row stay at block 0; the two
    adjacency windows are at blocks `2t` and `2t + 1` of 200 rows, the result window at block `t` of 400. -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 2 * t.val ∧ win0_3.index t (1 : Fin 2) = 0
    ∧ win0_4.index t (0 : Fin 2) = 2 * t.val + 1 ∧ win0_4.index t (1 : Fin 2) = 0
    ∧ win0_5.index t (0 : Fin 2) = t.val ∧ win0_5.index t (1 : Fin 2) = 0 :=
  (by decide +kernel : ∀ t : Fin grid0.N, _)

theorem iblk0_eq (c : Dev nD) (t : Fin cfg0.N) : iblk m c 0 t = V m c main_arg0 := by
  funext j
  show V m c main_arg0 (((cfg0.win 0).blk t).view.emb j) = V m c main_arg0 j
  congr 1; funext a; apply Fin.ext
  obtain ⟨e00, e01, -⟩ := idx_facts t
  match a with
  | ⟨0, _⟩ => show win0_0.index t (0 : Fin 2) * 10000 + 1 * (j 0).val = (j 0).val; omega
  | ⟨1, _⟩ => show win0_0.index t (1 : Fin 2) * 128 + 1 * (j 1).val = (j 1).val; omega

theorem iblk1_eq (c : Dev nD) (t : Fin cfg0.N) : iblk m c 1 t = V m c main_arg2 := by
  funext j
  show V m c main_arg2 (((cfg0.win 1).blk t).view.emb j) = V m c main_arg2 j
  congr 1; funext a; apply Fin.ext
  obtain ⟨-, -, e10, e11, -⟩ := idx_facts t
  match a with
  | ⟨0, _⟩ => show win0_1.index t (0 : Fin 2) * 128 + 1 * (j 0).val = (j 0).val; omega
  | ⟨1, _⟩ => show win0_1.index t (1 : Fin 2) * 128 + 1 * (j 1).val = (j 1).val; omega

theorem iblk2_eq (c : Dev nD) (t : Fin cfg0.N) : iblk m c 2 t = V m c main_v0 := by
  funext j
  show V m c main_v0 (((cfg0.win 2).blk t).view.emb j) = V m c main_v0 j
  congr 1; funext a; apply Fin.ext
  obtain ⟨-, -, -, -, e20, e21, -⟩ := idx_facts t
  match a with
  | ⟨0, _⟩ => show win0_2.index t (0 : Fin 2) * 1 + 1 * (j 0).val = (j 0).val; omega
  | ⟨1, _⟩ => show win0_2.index t (1 : Fin 2) * 128 + 1 * (j 1).val = (j 1).val; omega

/-! ## After each point, in closed form -/

/-- From the first point on the scratch holds the product of the two arrays: the first point stores it, every later
    point leaves what it found. -/
theorem stateAt_snd_fin (c : Dev nD) : ∀ (n : ℕ) (t : Fin cfg0.N), t.val = n →
    (stateAt m c t.val t.isLt).2 = k0_pay2 (V m c main_arg0) (V m c main_arg2)
  | 0, t, h => by
    rw [stateAt_first m c t h]; dsimp only
    rw [supOf_eq, iblk0_eq, iblk1_eq]
  | n + 1, t, h => by
    have hz : t.val ≠ 0 := by omega
    rw [stateAt_later m c t hz]; dsimp only
    exact stateAt_snd_fin c n ⟨t.val - 1, Nat.lt_of_le_of_lt (Nat.sub_le _ _) t.isLt⟩ (by show t.val - 1 = n; omega)

theorem stateAt_snd (c : Dev nD) (n : ℕ) (hn : n < cfg0.N) :
    (stateAt m c n hn).2 = k0_pay2 (V m c main_arg0) (V m c main_arg2) :=
  stateAt_snd_fin m c n ⟨n, hn⟩ rfl

/-- After point `t` the result window's buffer holds the two half-block stores over the arrays, the point's two
    adjacency blocks and that product. -/
theorem stateAt_fst (c : Dev nD) (t : Fin cfg0.N) :
    (stateAt m c t.val t.isLt).1
      = outBlock (grid0.coords t) (V m c main_arg0) (V m c main_v0) (iblk m c 3 t) (iblk m c 4 t) (k0_pay2 (V m c main_arg0) (V m c main_arg2)) := by
  by_cases hz : t.val = 0
  · rw [stateAt_first m c t hz]; dsimp only
    rw [outFirst_eq, iblk0_eq, iblk1_eq, iblk2_eq]
  · rw [stateAt_later m c t hz]; dsimp only
    rw [outLater_eq, stateAt_snd, iblk0_eq, iblk2_eq]

end Cert.KernelIdeal.Fr

end
-- ==== Proof.Spec.lean ====
import Idealize.ShloMosaic.PureOps.Ideal
import Idealize.ShloMosaic.Lib.ValueIdx

/-!
# The graph-convolution layer as one function of its four arrays

`support = x · W`, `aggregated = adj · support`, a row is blended as `β·x + (1-β)·aggregated`, divided by
`max (‖row‖₂, ε)` and shifted by the bias. Everything is stated on the extended reals, row by row: the row-level
functions take the row of the adjacency matrix, the support matrix, the row of `x` and the bias as plain
functions of `Fin`-coordinates, so that a block of rows and the whole array are read by the same definitions.
The three float literals stay as their binary words: both programs use the same words.
-/

noncomputable section

open scoped BigOperators

namespace Cert.GcnSpec

open Idealize.ShloMosaic Idealize.ShloMosaic.ValueIdx

/-- The blending weight β (the word of f32 0.001), -/
abbrev cBeta : EReal := Ideal.ofBits .f32 0x3A83126F#32
/-- its complement (the word of f32 0.999), -/
abbrev cOneMinusBeta : EReal := Ideal.ofBits .f32 0x3F7FBE77#32
/-- and the norm's floor ε (the word of f32 1e-12). -/
abbrev cEps : EReal := Ideal.ofBits .f32 0x2B8CBCCC#32

/-- `support k j = ∑ₗ x[k,l] · W[l,j]`. -/
def support (x : (⟨2, ![10000, 128]⟩ : Shape).Idx → EReal) (w : (⟨2, ![128, 128]⟩ : Shape).Idx → EReal)
    (k : Fin 10000) (j : Fin 128) : EReal :=
  ∑ l : Fin 128, x (ix2 k l) * w (ix2 l j)

/-- One row of `adj · support`: `∑ₖ arow[k] · sup[k,j]`. -/
def rowAgg (arow : Fin 10000 → EReal) (sup : Fin 10000 → Fin 128 → EReal) (j : Fin 128) : EReal :=
  ∑ k : Fin 10000, arow k * sup k j

/-- The blended row `β·x + (1-β)·agg`. -/
def rowBlend (xrow agg : Fin 128 → EReal) (j : Fin 128) : EReal :=
  cBeta * xrow j + cOneMinusBeta * agg j

/-- A row `u` divided by `max (√(∑ u²), ε)`, plus the bias. -/
def rowNormalized (u bias : Fin 128 → EReal) (j : Fin 128) : EReal :=
  Ideal.div (u j) (max (Ideal.sqrt (∑ j' : Fin 128, u j' * u j')) cEps) + bias j

/-- One output row from the adjacency row, the support matrix, the row of `x` and the bias. -/
def rowOut (arow : Fin 10000 → EReal) (sup : Fin 10000 → Fin 128 → EReal) (xrow bias : Fin 128 → EReal) (j : Fin 128) : EReal :=
  rowNormalized (rowBlend xrow (rowAgg arow sup)) bias j

/-- The layer's result, index by index. -/
def G (x : (⟨2, ![10000, 128]⟩ : Shape).Idx → EReal) (adj : (⟨2, ![10000, 10000]⟩ : Shape).Idx → EReal)
    (w : (⟨2, ![128, 128]⟩ : Shape).Idx → EReal) (b : (⟨1, ![128]⟩ : Shape).Idx → EReal) :
    (⟨2, ![10000, 128]⟩ : Shape).Idx → EReal :=
  fun i => rowOut (fun k => adj (ix2 (n0 := 10000) (n1 := 10000) (i 0) k)) (support x w)
    (fun j => x (ix2 (n0 := 10000) (n1 := 128) (i 0) j)) (fun j => b (ix1 j)) (i 1)

theorem G_ix2 (x : (⟨2, ![10000, 128]⟩ : Shape).Idx → EReal) (adj : (⟨2, ![10000, 10000]⟩ : Shape).Idx → EReal)
    (w : (⟨2, ![128, 128]⟩ : Shape).Idx → EReal) (b : (⟨1, ![128]⟩ : Shape).Idx → EReal) (r : Fin 10000) (j : Fin 128) :
    G x adj w b (ix2 r j) = rowOut (fun k => adj (ix2 r k)) (support x w) (fun j => x (ix2 r j)) (fun j => b (ix1 j)) j := rfl

end Cert.GcnSpec

end
-- ==== Proof.Payload.lean ====
import proofs.«145090_g70068096467658_cont_9to1_m_110_5_alg».proof.Proof.Spec
import proofs.«145090_g70068096467658_cont_9to1_m_110_5_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

/-!
# The body's payloads read at an index, at the ideal values

Each payload of the body is a composition of pointwise operations, two matrix products into a zero accumulator, one
row sum, and three changes of layout (a vector viewed as a column, a column repeated along the rows' entries, one row
repeated over all rows). Read at an index `(p, j)` each of them is the corresponding row-level function of the
specification: the product `x · W`, a row of `adj · support`, and the blended row divided by its floored Euclidean
norm and shifted by the bias. Narrowing a format is the identity on the extended reals.
-/

noncomputable section

open scoped BigOperators

namespace Cert.KernelIdeal.PayloadValue

open Cert.KernelIdeal Cert.KernelIdeal.Gen Idealize.ShloMosaic Idealize.ShloMosaic.ValueIdx

/-! ## The two matrix products read at an index

Each product accumulates into the zero array, so at the ideal values its element at `(p, j)` is the plain sum of
products over the one contracted axis. The contraction index of the dimension numbers is re-indexed by its single
coordinate; the operand indices the dimension numbers build are then `(p, k)` and `(k, j)`. -/

/-- Row coordinate of the left operand's index: the output's row. -/
theorem lhsW_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- Column coordinate of the left operand's index: the contracted coordinate. -/
theorem lhsW_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
/-- Row coordinate of the right operand's index: the contracted coordinate. -/
theorem rhsW_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
/-- Column coordinate of the right operand's index: the output's column. -/
theorem rhsW_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- `x · W` at `(p, j)`: the sum over the 128 input features. -/
theorem matmulW_apply {φ₁ φ₂ : FTy} (lhs : FVec Ideal S10000x128 φ₁) (rhs : FVec Ideal S128x128 φ₂) (p : Fin 10000) (j : Fin 128) :
    matmul dot_S10000x128_S128x128_S10000x128_1_0_0_1_n_n none lhs rhs (constant (F := Ideal) S10000x128 .f32 0x00000000#32) (ix2 p j)
      = ∑ k : Fin 128, lhs (ix2 p k) * rhs (ix2 k j) := by
  simp only [matmul]
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p j) ((contrEquiv1 dot_S10000x128_S128x128_S10000x128_1_0_0_1_n_n 128 rfl rfl).symm k) = ix2 p k := funext fun a => Fin.ext (by
    match a with
    | ⟨0, _⟩ => exact lhsW_0 _ _
    | ⟨1, _⟩ => exact (lhsW_1 _ _).trans hk)
  have er : dot_S10000x128_S128x128_S10000x128_1_0_0_1_n_n.rhsIdx (ix2 p j) ((contrEquiv1 dot_S10000x128_S128x128_S10000x128_1_0_0_1_n_n 128 rfl rfl).symm k) = ix2 k j := funext fun a => Fin.ext (by
    match a with
    | ⟨0, _⟩ => exact (rhsW_0 _ _).trans hk
    | ⟨1, _⟩ => exact rhsW_1 _ _)
  rw [el, er]

/-- Row coordinate of the left operand's index: the output's row. -/
theorem lhsA_0 (i : S200x128.Idx) (q : dot_S200x10000_S10000x128_S200x128_1_0_0_1_n_n.contr.Idx) :
    (dot_S200x10000_S10000x128_S200x128_1_0_0_1_n_n.lhsIdx i q 0).val = (i 0).val := by
  unfold DotDims.lhsIdx
  rw [dif_neg (show ¬(0 : Fin S200x10000.rank) ∈ dot_S200x10000_S10000x128_S200x128_1_0_0_1_n_n.lhsBatch by decide), dif_pos (show (0 : Fin S200x10000.rank) ∈ dot_S200x10000_S10000x128_S200x128_1_0_0_1_n_n.lhsNonContracting by decide)]
  rfl
/-- Column coordinate of the left operand's index: the contracted coordinate. -/
theorem lhsA_1 (i : S200x128.Idx) (q : dot_S200x10000_S10000x128_S200x128_1_0_0_1_n_n.contr.Idx) :
    (dot_S200x10000_S10000x128_S200x128_1_0_0_1_n_n.lhsIdx i q 1).val = (q ⟨0, by decide⟩).val :=
  dot_S200x10000_S10000x128_S200x128_1_0_0_1_n_n.lhsIdx_val_of_single rfl i q
/-- Row coordinate of the right operand's index: the contracted coordinate. -/
theorem rhsA_0 (i : S200x128.Idx) (q : dot_S200x10000_S10000x128_S200x128_1_0_0_1_n_n.contr.Idx) :
    (dot_S200x10000_S10000x128_S200x128_1_0_0_1_n_n.rhsIdx i q 0).val = (q ⟨0, by decide⟩).val :=
  dot_S200x10000_S10000x128_S200x128_1_0_0_1_n_n.rhsIdx_val_of_single rfl i q
/-- Column coordinate of the right operand's index: the output's column. -/
theorem rhsA_1 (i : S200x128.Idx) (q : dot_S200x10000_S10000x128_S200x128_1_0_0_1_n_n.contr.Idx) :
    (dot_S200x10000_S10000x128_S200x128_1_0_0_1_n_n.rhsIdx i q 1).val = (i 1).val := by
  unfold DotDims.rhsIdx
  rw [dif_neg (show ¬(1 : Fin S10000x128.rank) ∈ dot_S200x10000_S10000x128_S200x128_1_0_0_1_n_n.rhsBatch by decide), dif_pos (show (1 : Fin S10000x128.rank) ∈ dot_S200x10000_S10000x128_S200x128_1_0_0_1_n_n.rhsNonContracting by decide)]
  rfl

/-- `(block of adjacency rows) · support` at `(p, j)`: the sum over the 10000 nodes. -/
theorem matmulA_apply {φ₁ φ₂ : FTy} (lhs : FVec Ideal S200x10000 φ₁) (rhs : FVec Ideal S10000x128 φ₂) (p : Fin 200) (j : Fin 128) :
    matmul dot_S200x10000_S10000x128_S200x128_1_0_0_1_n_n none lhs rhs (constant (F := Ideal) S200x128 .f32 0x00000000#32) (ix2 p j)
      = ∑ k : Fin 10000, lhs (ix2 p k) * rhs (ix2 k j) := by
  simp only [matmul]
  rw [Ideal.matmul_constant_zero_apply, ← Equiv.sum_comp (contrEquiv1 dot_S200x10000_S10000x128_S200x128_1_0_0_1_n_n 10000 rfl rfl).symm]
  refine Finset.sum_congr rfl fun k _ => ?_
  have hk := contrEquiv1_symm_val dot_S200x10000_S10000x128_S200x128_1_0_0_1_n_n 10000 rfl rfl k
  have el : dot_S200x10000_S10000x128_S200x128_1_0_0_1_n_n.lhsIdx (ix2 p j) ((contrEquiv1 dot_S200x10000_S10000x128_S200x128_1_0_0_1_n_n 10000 rfl rfl).symm k) = ix2 p k := funext fun a => Fin.ext (by
    match a with
    | ⟨0, _⟩ => exact lhsA_0 _ _
    | ⟨1, _⟩ => exact (lhsA_1 _ _).trans hk)
  have er : dot_S200x10000_S10000x128_S200x128_1_0_0_1_n_n.rhsIdx (ix2 p j) ((contrEquiv1 dot_S200x10000_S10000x128_S200x128_1_0_0_1_n_n 10000 rfl rfl).symm k) = ix2 k j := funext fun a => Fin.ext (by
    match a with
    | ⟨0, _⟩ => exact (rhsA_0 _ _).trans hk
    | ⟨1, _⟩ => exact rhsA_1 _ _)
  rw [el, er]

/-! ## The changes of layout and the row sum read at an index -/

/-- A vector `[a]` viewed as the column `[a, 1]` reads, at `(p, u)`, the vector at `p`. -/
theorem shapeCast_a_a1_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` repeated to `[a, b]` reads, at `(p, c)`, the column's entry of row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of a `[200, 128]` block along its rows' entries, at row `p`: the sum of the row's 128 entries. -/
theorem rowSum_apply (u : FVec Ideal S200x128 .f32) (hacc : (0x00000000#32 : BitVec 32) = 0x00000000#32) (p : Fin 200) :
    multiReduction (F := Ideal) .add [1] S200 u 0x00000000#32 reduces_S200x128_S200 (.inl rfl) hacc (ix1 p)
      = ∑ j : Fin 128, u (ix2 p j) := by
  refine (Ideal.multiReduction_add_single u 0x00000000#32 reduces_S200x128_S200 (.inl rfl) hacc (ix1 p)).trans ?_
  refine Finset.sum_congr rfl fun j _ => congrArg u (funext fun a => Fin.ext ?_)
  match a with
  | ⟨0, _⟩ => rfl
  | ⟨1, _⟩ => rfl

/-! ## The normalisation shared by the two stored payloads -/

/-- A `[200, 128]` block `u` divided row by row by `max (√(∑ u²), ε)` and shifted by the one bias row, at `(p, j)`. -/
theorem normalized_apply (u : FVec Ideal S200x128 .f32) (b : FVec Ideal S1x128 .f32) (p : Fin 200) (j : Fin 128) :
    addf (divf u (broadcastTo S200x128 (maximumf (sqrt (shapeCast S200x1 (multiReduction (F := Ideal) .add [1] S200 (mulf u u) 0x00000000#32 reduces_S200x128_S200 (.inl rfl) rfl) shapeCasts_S200_S200x1)) (broadcast S200x1 (Scalar.ofBits (F := Ideal) .f32 0x2B8CBCCC#32))) broadcasts_S200x1_S200x128)) (broadcastTo S200x128 b broadcasts_S1x128_S200x128) (ix2 p j)
      = Cert.GcnSpec.rowNormalized (fun j => u (ix2 p j)) (fun j => b (ix2 (0 : Fin 1) j)) j := by
  rw [addf_apply, divf_apply, broadcastTo_a1_ab_apply, broadcastTo_1b_ab_apply, maximumf_apply, broadcast_apply]
  show Ideal.div (u (ix2 p j)) (max (Ideal.sqrt (shapeCast S200x1 _ shapeCasts_S200_S200x1 (ix2 p (0 : Fin 1)))) _) + _ = _
  rw [shapeCast_a_a1_apply, rowSum_apply]
  rfl

/-! ## The payloads -/

/-- The bias row passes through a cast to its own shape. -/
theorem pay3_eq (v4 : Vec Ideal S1x128 .f32) : k0_pay3 (F := Ideal) v4 = v4 := by
  unfold k0_pay3
  exact shapeCast_self v4 _

/-- The stored support block at `(k, j)` is `∑ₗ x[k,l] · W[l,j]`. -/
theorem pay2_apply (v54 : Vec Ideal S10000x128 .f32) (v56 : Vec Ideal S128x128 .f32) (k : Fin 10000) (j : Fin 128) :
    k0_pay2 (F := Ideal) v54 v56 (ix2 k j) = Cert.GcnSpec.support v54 v56 k j := by
  unfold k0_pay2
  show shapeCast S10000x128 _ shapeCasts_S10000x128_S10000x128 (ix2 k j) = _
  rw [shapeCast_self, truncf_apply, matmulW_apply]
  rfl

/-- The second half's aggregated block at `(p, j)` is `∑ₖ adj[p,k] · support[k,j]`. -/
theorem pay5_apply (v3 : Vec Ideal S10000x128 .bf16) (v30 : Vec Ideal S200x10000 .f32) (p : Fin 200) (j : Fin 128) :
    k0_pay5 (F := Ideal) v3 v30 (ix2 p j) = Cert.GcnSpec.rowAgg (fun k => v30 (ix2 p k)) (fun k j => v3 (ix2 k j)) j := by
  unfold k0_pay5
  show matmul dot_S200x10000_S10000x128_S200x128_1_0_0_1_n_n none _ _ (constant (F := Ideal) S200x128 .f32 0x00000000#32) (ix2 p j) = _
  rw [matmulA_apply]
  rfl

/-- The first half's stored block at `(p, j)` is the specification's output row. -/
theorem pay4_apply (v3 : Vec Ideal S10000x128 .bf16) (v4 : Vec Ideal S1x128 .f32) (v6 : Vec Ideal S200x10000 .f32) (v13 : Vec Ideal S200x128 .f32) (p : Fin 200) (j : Fin 128) :
    k0_pay4 (F := Ideal) v3 v4 v6 v13 (ix2 p j)
      = Cert.GcnSpec.rowOut (fun k => v6 (ix2 p k)) (fun k j => v3 (ix2 k j)) (fun j => v13 (ix2 p j)) (fun j => v4 (ix2 (0 : Fin 1) j)) j := by
  unfold k0_pay4
  rw [pay3_eq]
  refine (normalized_apply _ v4 p j).trans ?_
  unfold Cert.GcnSpec.rowOut
  refine congrArg (fun u => Cert.GcnSpec.rowNormalized u (fun j => v4 (ix2 (0 : Fin 1) j)) j) (funext fun j' => ?_)
  rw [addf_apply, mulf_apply, mulf_apply, broadcast_apply, broadcast_apply, matmulA_apply]
  rfl

/-- The second half's stored block at `(p, j)` is the blended row, normalised and shifted. -/
theorem pay1_apply (v5 : FVec Ideal S1x128 .f32) (v32 : FVec Ideal S200x128 .f32) (v37 : Vec Ideal S200x128 .f32) (p : Fin 200) (j : Fin 128) :
    k0_pay1 (F := Ideal) v5 v32 v37 (ix2 p j)
      = Cert.GcnSpec.rowNormalized (Cert.GcnSpec.rowBlend (fun j => v37 (ix2 p j)) (fun j => v32 (ix2 p j))) (fun j => v5 (ix2 (0 : Fin 1) j)) j := by
  unfold k0_pay1
  refine (normalized_apply _ v5 p j).trans ?_
  rfl

end Cert.KernelIdeal.PayloadValue

end
-- ==== Proof.ValueIdeal.Rows.lean ====
import proofs.«145090_g70068096467658_cont_9to1_m_110_5_alg».proof.Proof.ValueIdeal.Blocks
import proofs.«145090_g70068096467658_cont_9to1_m_110_5_alg».proof.Proof.Payload
import proofs.«145090_g70068096467658_cont_9to1_m_110_5_alg».proof.Proof.Spec
import Idealize.ShloMosaic.Lib.ValueIdx

/-!
# One element of the result block

At the ideal instance the two half-block payloads are the specification's row function. Row `p` of the upper half of
point `t`'s block is row `400 t + p` of the layer: its adjacency row is row `400 t + p` of the matrix (the first adjacency
window sits at block `2t` of 200 rows), its rows of `x` are read at offset `400 t`, the scratch is `x · W`, and the bias
row is the bias (the host line only reshapes it). The lower half is the same 200 rows further on.
-/

set_option maxRecDepth 16384

noncomputable section

namespace Cert.KernelIdeal.Val

open Cert.KernelIdeal Cert.KernelIdeal.Gen Cert.KernelIdeal.Fr Cert.KernelIdeal.PayloadValue
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The grid is one axis: the coordinate is the point. -/
theorem coord_eq : ∀ t : Fin cfg0.N, (grid0.coords t 0).val = t.val :=
  (by decide +kernel : ∀ t : Fin grid0.N, (grid0.coords t 0).val = t.val)

theorem t_lt (t : Fin cfg0.N) : t.val < 25 := lt_of_lt_of_eq t.isLt (show cfg0.N = 25 from N_0)

/-- The bias row the call finds is the bias, reshaped. -/
theorem V_main_v0 (c : Dev nD) :
    (V m c main_v0 : S1x128.Idx → Elt Ideal .f32) = shapeCast S1x128 (m ((c : Thread nD τ).loc main_arg3)) shapeCasts_S128_S1x128 := by
  dsimp only [V, hostOps0]; after_results; rfl

theorem bias_row (c : Dev nD) (q : Fin 128) :
    (V m c main_v0 : S1x128.Idx → Elt Ideal .f32) (ix2 (0 : Fin 1) q) = m ((c : Thread nD τ).loc main_arg3) (ix1 q) := by
  rw [V_main_v0]
  exact shapeCast_apply _ _ _ (ix1 q) (by rw [Shape.rowMajor_val_one, Shape.rowMajor_val_two]; show q.val = 0 * 128 + q.val; omega)

/-- The first adjacency window's block at point `t` is rows `400 t … 400 t + 199` of the matrix, -/
theorem adjA_row (c : Dev nD) (t : Fin cfg0.N) (p : Fin 200) (k : Fin 10000) :
    (iblk m c 3 t : S200x10000.Idx → Elt Ideal .f32) (ix2 p k)
      = (V m c main_arg1 : S10000x10000.Idx → Elt Ideal .f32) (ix2 ⟨400 * t.val + p.val, by have := t_lt t; omega⟩ k) := by
  show V m c main_arg1 (((cfg0.win 3).blk t).view.emb (ix2 p k)) = _
  congr 1; funext a; apply Fin.ext
  obtain ⟨-, -, -, -, -, -, e30, e31, -⟩ := idx_facts t
  match a with
  | ⟨0, _⟩ => show win0_3.index t (0 : Fin 2) * 200 + 1 * p.val = 400 * t.val + p.val; omega
  | ⟨1, _⟩ => show win0_3.index t (1 : Fin 2) * 10000 + 1 * k.val = k.val; omega

/-- the second's rows `400 t + 200 … 400 t + 399`. -/
theorem adjB_row (c : Dev nD) (t : Fin cfg0.N) (p : Fin 200) (k : Fin 10000) :
    (iblk m c 4 t : S200x10000.Idx → Elt Ideal .f32) (ix2 p k)
      = (V m c main_arg1 : S10000x10000.Idx → Elt Ideal .f32) (ix2 ⟨400 * t.val + 200 + p.val, by have := t_lt t; omega⟩ k) := by
  show V m c main_arg1 (((cfg0.win 4).blk t).view.emb (ix2 p k)) = _
  congr 1; funext a; apply Fin.ext
  obtain ⟨-, -, -, -, -, -, -, -, e40, e41, -⟩ := idx_facts t
  match a with
  | ⟨0, _⟩ => show win0_4.index t (0 : Fin 2) * 200 + 1 * p.val = 400 * t.val + 200 + p.val; omega
  | ⟨1, _⟩ => show win0_4.index t (1 : Fin 2) * 10000 + 1 * k.val = k.val; omega

/-- The 200 rows of `x` a half reads: at row offset `400 t + 200 r`. -/
theorem xrows (t : Fin cfg0.N) (r : Fin 2) (x0 : Vec Ideal S10000x128 .f32) (p : Fin 200) (q : Fin 128) :
    View.ld x0 (Rect.unit (k0_off1 (grid0.coords t) (BitVec.ofNat 32 r.val)) S200x128.size (k0_off1_inb (grid0.coords t) r)) (ix2 p q)
      = x0 (ix2 ⟨400 * t.val + 200 * r.val + p.val, by have := t_lt t; have := r.isLt; omega⟩ q) := by
  show x0 ((Rect.unit (s := S10000x128) (k0_off1 (grid0.coords t) (BitVec.ofNat 32 r.val)) S200x128.size (k0_off1_inb (grid0.coords t) r)).emb (ix2 p q)) = _
  congr 1; funext a; apply Fin.ext
  have ho := k0_off1_eq (grid0.coords t) r
  have hc := coord_eq t
  match a with
  | ⟨0, _⟩ =>
    show (k0_off1 (grid0.coords t) (BitVec.ofNat 32 r.val)) (0 : Fin 2) + 1 * p.val = 400 * t.val + 200 * r.val + p.val
    rw [ho]; show 400 * (grid0.coords t 0).val + 200 * r.val + 1 * p.val = _; omega
  | ⟨1, _⟩ =>
    show (k0_off1 (grid0.coords t) (BitVec.ofNat 32 r.val)) (1 : Fin 2) + 1 * q.val = q.val
    rw [ho]; show 0 + 1 * q.val = q.val; omega

/-! ## The block's two halves -/

section Halves

variable (i : grid0.Coords) (x0 : Vec Ideal S10000x128 .f32) (x2 : Vec Ideal S1x128 .f32) (x3 x4 : Vec Ideal S200x10000 .f32)
  (s : Vec Ideal S10000x128 .bf16)

/-- Rows 200–399 are the later store's payload, -/
theorem outBlock_hi (p : Fin 200) (q : Fin 128) :
    outBlock i x0 x2 x3 x4 s (ix2 (n0 := 400) ⟨200 + p.val, by omega⟩ q)
      = k0_pay1 (k0_pay3 x2) (k0_pay5 s x4) (View.ld x0 (Rect.unit (k0_off1 i 1#32) S200x128.size (k0_off1_inb i 1))) (ix2 p q) := by
  unfold outBlock
  have e : (ix2 (n0 := 400) (n1 := 128) ⟨200 + p.val, by omega⟩ q : S400x128.Idx)
      = (Rect.unit (s := S400x128) ![200, 0] S200x128.size inb_S400x128_S200x128_200_0).emb (ix2 p q) := by
    funext a; apply Fin.ext
    match a with
    | ⟨0, _⟩ => show 200 + p.val = 200 + 1 * p.val; omega
    | ⟨1, _⟩ => show q.val = 0 + 1 * q.val; omega
  rw [e, View.canon_cons_emb]

/-- rows 0–199 the earlier one's: the later store does not reach them. -/
theorem outBlock_lo (p : Fin 200) (q : Fin 128) :
    outBlock i x0 x2 x3 x4 s (ix2 (n0 := 400) ⟨p.val, by omega⟩ q)
      = k0_pay4 s x2 x3 (View.ld x0 (Rect.unit (k0_off1 i 0#32) S200x128.size (k0_off1_inb i 0))) (ix2 p q) := by
  unfold outBlock
  rw [View.canon_cons_of_not_mem _ _ (by
    rw [Rect.mem_set_unit]; intro h
    have h0 := (h (0 : Fin 2)).1
    have : (200 : ℕ) ≤ p.val := h0
    omega)]
  have e : (ix2 (n0 := 400) (n1 := 128) ⟨p.val, by omega⟩ q : S400x128.Idx)
      = (Rect.unit (s := S400x128) ![0, 0] S200x128.size inb_S400x128_S200x128_0_0).emb (ix2 p q) := by
    funext a; apply Fin.ext
    match a with
    | ⟨0, _⟩ => show p.val = 0 + 1 * p.val; omega
    | ⟨1, _⟩ => show q.val = 0 + 1 * q.val; omega
  rw [e, View.canon_cons_emb]

end Halves

end Cert.KernelIdeal.Val

end
-- ==== Proof.ValueIdeal.Final.lean ====
import proofs.«145090_g70068096467658_cont_9to1_m_110_5_alg».proof.Proof.ValueIdeal.Rows
import proofs.«145090_g70068096467658_cont_9to1_m_110_5_alg».proof.Proof.FrameIdeal.Launch

/-!
# The result array after the run

Element `(r, q)` of the block point `t` leaves is element `(400 t + r, q)` of the layer `G` of the four arrays: the upper
half by the first adjacency window, the lower by the second. So what point `t` writes back is block `t` of `G`; the 25
blocks of 400 rows tile the 10000 rows; hence the result array ends holding `G`.
-/

set_option maxRecDepth 16384

noncomputable section

namespace Cert.KernelIdeal.Val

open Cert.KernelIdeal Cert.KernelIdeal.Gen Cert.KernelIdeal.Fr Cert.KernelIdeal.PayloadValue
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The layer of the arrays as the call finds them (the bias before its reshape). -/
abbrev Gc (c : Dev nD) : S10000x128.Idx → EReal :=
  Cert.GcnSpec.G (V m c main_arg0) (V m c main_arg1) (V m c main_arg2) (m ((c : Thread nD τ).loc main_arg3))

theorem xrowsA (t : Fin cfg0.N) (x0 : Vec Ideal S10000x128 .f32) (p : Fin 200) (q : Fin 128) :
    View.ld x0 (Rect.unit (k0_off1 (grid0.coords t) 0#32) S200x128.size (k0_off1_inb (grid0.coords t) 0)) (ix2 p q)
      = x0 (ix2 ⟨400 * t.val + p.val, by have := t_lt t; omega⟩ q) :=
  (xrows t 0 x0 p q).trans (congrArg x0 (congrArg (fun z : Fin 10000 => ix2 z q) (Fin.ext (by show 400 * t.val + 200 * 0 + p.val = 400 * t.val + p.val; omega))))

theorem xrowsB (t : Fin cfg0.N) (x0 : Vec Ideal S10000x128 .f32) (p : Fin 200) (q : Fin 128) :
    View.ld x0 (Rect.unit (k0_off1 (grid0.coords t) 1#32) S200x128.size (k0_off1_inb (grid0.coords t) 1)) (ix2 p q)
      = x0 (ix2 ⟨400 * t.val + 200 + p.val, by have := t_lt t; omega⟩ q) :=
  (xrows t 1 x0 p q).trans (congrArg x0 (congrArg (fun z : Fin 10000 => ix2 z q) (Fin.ext (by show 400 * t.val + 200 * 1 + p.val = 400 * t.val + 200 + p.val; omega))))

/-- One element of the upper half of point `t`'s block, -/
theorem block_lo (c : Dev nD) (t : Fin cfg0.N) (p : Fin 200) (q : Fin 128) :
    (stateAt m c t.val t.isLt).1 (ix2 (n0 := 400) ⟨p.val, by omega⟩ q)
      = Gc m c (ix2 ⟨400 * t.val + p.val, by have := t_lt t; omega⟩ q) := by
  rw [stateAt_fst, outBlock_lo, pay4_apply]
  unfold Gc
  rw [Cert.GcnSpec.G_ix2]
  simp only [adjA_row, pay2_apply]
  have hx := funext fun j => xrowsA t (V m c main_arg0) p j
  have hb := funext fun j => bias_row m c j
  exact congrArg₂ (fun X B => Cert.GcnSpec.rowOut _ _ X B q) hx hb

/-- and of the lower half. -/
theorem block_hi (c : Dev nD) (t : Fin cfg0.N) (p : Fin 200) (q : Fin 128) :
    (stateAt m c t.val t.isLt).1 (ix2 (n0 := 400) ⟨200 + p.val, by omega⟩ q)
      = Gc m c (ix2 ⟨400 * t.val + 200 + p.val, by have := t_lt t; omega⟩ q) := by
  rw [stateAt_fst, outBlock_hi, pay1_apply]
  unfold Gc
  rw [Cert.GcnSpec.G_ix2]
  simp only [pay3_eq, pay5_apply, adjB_row, pay2_apply]
  have hx := funext fun j => xrowsB t (V m c main_arg0) p j
  have hb := funext fun j => bias_row m c j
  exact congrArg₂ (fun X B => Cert.GcnSpec.rowNormalized (Cert.GcnSpec.rowBlend X (Cert.GcnSpec.rowAgg _ _)) B q) hx hb

/-- One element of point `t`'s block is the layer's, 400 t rows down. -/
theorem block_apply (c : Dev nD) (t : Fin cfg0.N) (r : Fin 400) (q : Fin 128) :
    (stateAt m c t.val t.isLt).1 (ix2 r q) = Gc m c (ix2 ⟨400 * t.val + r.val, by have := t_lt t; omega⟩ q) := by
  by_cases hr : r.val < 200
  · exact block_lo m c t ⟨r.val, hr⟩ q
  · have e : r = ⟨200 + (⟨r.val - 200, by omega⟩ : Fin 200).val, by show 200 + (r.val - 200) < 400; omega⟩ :=
      Fin.ext (by show r.val = 200 + (r.val - 200); omega)
    rw [e, block_hi m c t ⟨r.val - 200, by omega⟩ q]
    exact congrArg (Gc m c) (congrArg (fun z : Fin 10000 => ix2 z q) (Fin.ext (by show 400 * t.val + 200 + (r.val - 200) = 400 * t.val + (200 + (r.val - 200)); omega)))

/-- WHAT POINT `t` WRITES BACK is block `t` of the layer. -/
theorem flushed_eq (c : Dev nD) (t : Fin cfg0.N) :
    (dats m 0 c).flushed 5 t = ((cfg0.win 5).blk t).view.read (Elt Ideal) (Gc m c) := by
  show (cfg0.win 5).cut (grid0.coords t) ((dats m 0 c).after 5 t) = _
  rw [after_5]
  funext j
  show (stateAt m c t.val t.isLt).1 j = Gc m c (((cfg0.win 5).blk t).view.emb j)
  obtain ⟨r, q, rfl⟩ : ∃ (r : Fin 400) (q : Fin 128), j = ix2 r q := ⟨j 0, j 1, eq_ix2 j⟩
  rw [block_apply]
  congr 1; funext a; apply Fin.ext
  obtain ⟨-, -, -, -, -, -, -, -, -, -, e50, e51⟩ := idx_facts t
  match a with
  | ⟨0, _⟩ => show 400 * t.val + r.val = win0_5.index t (0 : Fin 2) * 400 + 1 * r.val; omega
  | ⟨1, _⟩ => show q.val = win0_5.index t (1 : Fin 2) * 128 + 1 * q.val; omega

/-- An index of the array is in point `t`'s block iff each coordinate is in the block's range on its axis. -/
theorem mem_blk5 (t : Fin cfg0.N) (i : S10000x128.Idx) :
    i ∈ ((cfg0.win 5).blk t).view.set ↔ ∀ a : Fin 2, win0_5.index t a * S400x128.size a ≤ (i a).val ∧ (i a).val < win0_5.index t a * S400x128.size a + S400x128.size a := by
  show i ∈ ((View.whole main_v1).slice (win0_5.rect t)).set ↔ _
  rw [View.set_slice_whole, Rect.mem_set_unit]
  exact Iff.rfl

/-- The 25 blocks of 400 rows tile the array: row `r` is in block `r / 400`. -/
theorem cover5 (i : S10000x128.Idx) : ∃ t : Fin cfg0.N, (cfg0.win 5).flush t = true ∧ i ∈ ((cfg0.win 5).blk t).view.set := by
  have hi0 : (i 0).val < 10000 := (i 0).isLt
  have hi1 : (i 1).val < 128 := (i 1).isLt
  have hN : cfg0.N = 25 := N_0
  refine ⟨⟨(i 0).val / 400, by omega⟩, flush0_5 _, ?_⟩
  rw [mem_blk5]
  obtain ⟨-, -, -, -, -, -, -, -, -, -, e50, e51⟩ := idx_facts ⟨(i 0).val / 400, by omega⟩
  intro a
  match a with
  | ⟨0, _⟩ =>
    show win0_5.index ⟨(i 0).val / 400, _⟩ (0 : Fin 2) * 400 ≤ (i 0).val ∧ (i 0).val < win0_5.index ⟨(i 0).val / 400, _⟩ (0 : Fin 2) * 400 + 400
    rw [e50]; show (i 0).val / 400 * 400 ≤ (i 0).val ∧ (i 0).val < (i 0).val / 400 * 400 + 400; omega
  | ⟨1, _⟩ =>
    show win0_5.index ⟨(i 0).val / 400, _⟩ (1 : Fin 2) * 128 ≤ (i 1).val ∧ (i 1).val < win0_5.index ⟨(i 0).val / 400, _⟩ (1 : Fin 2) * 128 + 128
    rw [e51]; omega

/-- THE ARRAY after the run: the layer of the arrays as the call finds them. -/
theorem final (c : Dev nD) : (dats m 0 c).arrAt 5 cfg0.N = Gc m c :=
  (dats m 0 c).arrAt_eq_of_cover 5 (Gc m c) (fun t _ => flushed_eq m c t) (cover5)

/-- The run re-posted: the result array at the layer of the four arguments, the arguments unchanged. -/
theorem run : θ_run defs (onTc (τ := τ) (main (F := Ideal))) ⟨m, fun _ => 0, ρ⟩ fun r => ∀ c : Dev nD,
      r.2.mem ((c.tc : Thread nD τ).loc main_v1)
        = Cert.GcnSpec.G (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨(((h c).1 5).trans (final m c)).trans (by unfold Gc; rw [V_main_arg0, V_main_arg1, V_main_arg2]),
     ((h c).1 0).trans ((arrAt_in m c 0 rfl _).trans (V_main_arg0 m c)),
     ((h c).1 3).trans ((arrAt_in m c 3 rfl _).trans (V_main_arg1 m c)),
     ((h c).1 1).trans ((arrAt_in m c 1 rfl _).trans (V_main_arg2 m c)),
     ((h c).2 main_arg3 (Pipeline.mem_restRefs_of main_arg3 rfl (by decide))).trans (V_main_arg3 m c)⟩) (run_main m ρ)

end Cert.KernelIdeal.Val

end
-- ==== Proof.RefValue.lean ====
import proofs.«145090_g70068096467658_cont_9to1_m_110_5_alg».proof.Proof.Spec
import proofs.«145090_g70068096467658_cont_9to1_m_110_5_alg».proof.Proof.Gen.ReferenceIdeal.Read

/-!
# The reference program computes the layer function `G`

The reference is read one operation at a time at an index `ix2 r j`: two contractions (`x · W`, then `adj · (x · W)`),
the blend `β·x + (1-β)·agg`, the row's sum of squares, its square root floored at `ε`, the division and the bias.
Each index function of the generated read-at-an-index module is identified with a coordinate constructor, after which the
chain of operations is literally the row-level definitions of the specification.
-/

noncomputable section

open scoped BigOperators

namespace Cert.RefBridge

open Cert.ReferenceIdeal Cert.ReferenceIdeal.Read Cert.ReferenceIdeal.Gen Cert.GcnSpec
open Idealize.ShloMosaic Idealize.ShloMosaic.ValueIdx Idealize.ShloMosaic.TcCoe Idealize.SL.Sem Idealize.ShloMosaic.StableHlo

/-! ## The index functions at coordinates -/

theorem lidx_v0_ix2 (r : Fin 10000) (j l : Fin 128) :
    lidx_main_v0 (ix2 r j) l = ix2 (n0 := 10000) (n1 := 128) r l :=
  funext fun a => by match a with | ⟨0, _⟩ => rfl | ⟨1, _⟩ => rfl

theorem ridx_v0_ix2 (r : Fin 10000) (j l : Fin 128) :
    ridx_main_v0 (ix2 r j) l = ix2 (n0 := 128) (n1 := 128) l j :=
  funext fun a => by match a with | ⟨0, _⟩ => rfl | ⟨1, _⟩ => rfl

theorem lidx_v1_ix2 (r : Fin 10000) (j : Fin 128) (k : Fin 10000) :
    lidx_main_v1 (ix2 r j) k = ix2 (n0 := 10000) (n1 := 10000) r k :=
  funext fun a => by match a with | ⟨0, _⟩ => rfl | ⟨1, _⟩ => rfl

theorem ridx_v1_ix2 (r : Fin 10000) (j : Fin 128) (k : Fin 10000) :
    ridx_main_v1 (ix2 r j) k = ix2 (n0 := 10000) (n1 := 128) k j :=
  funext fun a => by match a with | ⟨0, _⟩ => rfl | ⟨1, _⟩ => rfl

theorem idx_v13_ix2 (r : Fin 10000) (j : Fin 128) :
    idx_main_v13 (ix2 r j) = ix2 (n0 := 10000) (n1 := 1) r 0 :=
  funext fun a => by match a with | ⟨0, _⟩ => rfl | ⟨1, _⟩ => rfl

theorem idx_v9_ix2 (r : Fin 10000) :
    idx_main_v9 (ix2 (n0 := 10000) (n1 := 1) r 0) = ix1 (n := 10000) r :=
  funext fun a => by match a with | ⟨0, _⟩ => rfl

theorem idx_v8_ix1 (r : Fin 10000) (k : Fin 128) :
    idx_main_v8 (ix1 r) k = ix2 (n0 := 10000) (n1 := 128) r k :=
  funext fun a => by match a with | ⟨0, _⟩ => rfl | ⟨1, _⟩ => rfl

theorem idx_v16_ix2 (r : Fin 10000) (j : Fin 128) :
    idx_main_v16 (ix2 r j) = ix2 (n0 := 1) (n1 := 128) 0 j :=
  funext fun a => by match a with | ⟨0, _⟩ => rfl | ⟨1, _⟩ => rfl

theorem idx_v15_ix2 (j : Fin 128) :
    idx_main_v15 (ix2 (n0 := 1) (n1 := 128) 0 j) = ix1 (n := 128) j :=
  funext fun a => by match a with | ⟨0, _⟩ => rfl

/-! ## The two contractions and the blend -/

/-- `x · W` at `(k, j)`. -/
theorem v0_at (x0 : (⟨S10000x128, .f32⟩ : BufTy).Contents (Elt Ideal)) (x2 : (⟨S128x128, .f32⟩ : BufTy).Contents (Elt Ideal))
    (k : Fin 10000) (j : Fin 128) :
    val_main_v0 (F := Ideal) x0 x2 (ix2 k j) = support x0 x2 k j := by
  rw [val_main_v0_apply]
  unfold support
  refine Finset.sum_congr rfl fun l _ => ?_
  rw [lidx_v0_ix2, ridx_v0_ix2]

/-- The blended row at `(r, j)`. -/
theorem v6_at (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (r : Fin 10000) (j : Fin 128) :
    val_main_v6 (F := Ideal) x0 x1 x2 (ix2 r j)
      = rowBlend (fun j => x0 (ix2 r j)) (rowAgg (fun k => x1 (ix2 r k)) (support x0 x2)) j := by
  rw [val_main_v6_apply, val_main_v3_apply, val_main_v5_apply, val_main_v2_apply, val_main_v4_apply,
    val_main_cst_apply, val_main_cst_0_apply, val_main_v1_apply]
  unfold rowBlend rowAgg
  simp only [Ideal.addf_def, Ideal.mulf_def, Ideal.ofBits_def, lidx_v1_ix2, ridx_v1_ix2, v0_at]

/-! ## The reference is `G` -/

theorem reference_eq
    (x0 : (⟨Cert.ReferenceIdeal.S10000x128, .f32⟩ : BufTy).Contents (Elt Ideal)) (x1 : (⟨Cert.ReferenceIdeal.S10000x10000, .f32⟩ : BufTy).Contents (Elt Ideal))
    (x2 : (⟨Cert.ReferenceIdeal.S128x128, .f32⟩ : BufTy).Contents (Elt Ideal)) (x3 : (⟨Cert.ReferenceIdeal.S128, .f32⟩ : BufTy).Contents (Elt Ideal)) :
    Cert.ReferenceIdeal.Read.val_main_v17 (F := Ideal) x0 x1 x2 x3 = Cert.GcnSpec.G x0 x1 x2 x3 := by
  funext i
  obtain ⟨r, j, rfl⟩ : ∃ (r : Fin 10000) (j : Fin 128), i = ix2 r j := ⟨i 0, i 1, eq_ix2 i⟩
  rw [G_ix2, val_main_v17_apply, val_main_v14_apply, val_main_v13_apply, val_main_v12_apply, val_main_v10_apply,
    val_main_v9_apply, val_main_v11_apply, val_main_cst_2_apply, val_main_v16_apply, val_main_v15_apply,
    idx_v13_ix2, idx_v9_ix2, val_main_v8_apply, val_main_cst_1_apply, idx_v16_ix2, idx_v15_ix2, v6_at]
  unfold rowOut rowNormalized
  simp only [Ideal.addf_def, Ideal.hostDivf_def, Ideal.maximumf_def, Ideal.hostUnary_sqrt_def, Ideal.ofBits_def,
    Ideal.ofBits_zero_f32, zero_add, val_main_v7_apply, Ideal.mulf_def, idx_v8_ix1, v6_at]

/-- The reference's result term, as the run of the program states it, is `G`. -/
theorem run_term_eq
    (x0 : (⟨Cert.ReferenceIdeal.S10000x128, .f32⟩ : BufTy).Contents (Elt Ideal)) (x1 : (⟨Cert.ReferenceIdeal.S10000x10000, .f32⟩ : BufTy).Contents (Elt Ideal))
    (x2 : (⟨Cert.ReferenceIdeal.S128x128, .f32⟩ : BufTy).Contents (Elt Ideal)) (x3 : (⟨Cert.ReferenceIdeal.S128, .f32⟩ : BufTy).Contents (Elt Ideal)) :
    addf (F := Ideal) (Host.divf (addf (mulf (broadcastInDim S10000x128 ![] bcast_S_S10000x128 (constant S_ .f32 0x3A83126F#32)) (x0)) (mulf (broadcastInDim S10000x128 ![] bcast_S_S10000x128 (constant S_ .f32 0x3F7FBE77#32)) (Host.dotGeneral (φ₁ := .f32) (φ₂ := .f32) dot_S10000x10000_S10000x128_S10000x128_1_0_0_1_n_n none (x1) (Host.dotGeneral (φ₁ := .f32) (φ₂ := .f32) dot_S10000x128_S128x128_S10000x128_1_0_0_1_n_n none (x0) (x2))))) (broadcastInDim S10000x128 ![0, 1] bcast_S10000x1_S10000x128_0_1 (maximumf (Host.sqrt (broadcastInDim S10000x1 ![0] bcast_S10000_S10000x1_0 (Host.reduceAdd (mulf (addf (mulf (broadcastInDim S10000x128 ![] bcast_S_S10000x128 (constant S_ .f32 0x3A83126F#32)) (x0)) (mulf (broadcastInDim S10000x128 ![] bcast_S_S10000x128 (constant S_ .f32 0x3F7FBE77#32)) (Host.dotGeneral (φ₁ := .f32) (φ₂ := .f32) dot_S10000x10000_S10000x128_S10000x128_1_0_0_1_n_n none (x1) (Host.dotGeneral (φ₁ := .f32) (φ₂ := .f32) dot_S10000x128_S128x128_S10000x128_1_0_0_1_n_n none (x0) (x2))))) (addf (mulf (broadcastInDim S10000x128 ![] bcast_S_S10000x128 (constant S_ .f32 0x3A83126F#32)) (x0)) (mulf (broadcastInDim S10000x128 ![] bcast_S_S10000x128 (constant S_ .f32 0x3F7FBE77#32)) (Host.dotGeneral (φ₁ := .f32) (φ₂ := .f32) dot_S10000x10000_S10000x128_S10000x128_1_0_0_1_n_n none (x1) (Host.dotGeneral (φ₁ := .f32) (φ₂ := .f32) dot_S10000x128_S128x128_S10000x128_1_0_0_1_n_n none (x0) (x2)))))) (constant S_ .f32 0x00000000#32) reducesTo_S10000x128_S10000_d1 h_S_))) (broadcastInDim S10000x1 ![] bcast_S_S10000x1 (constant S_ .f32 0x2B8CBCCC#32))))) (broadcastInDim S10000x128 ![0, 1] bcast_S1x128_S10000x128_0_1 (broadcastInDim S1x128 ![1] bcast_S128_S1x128_1 (x3)))
      = Cert.GcnSpec.G x0 x1 x2 x3 :=
  (val_main_v17_eq (F := Ideal) x0 x1 x2 x3).trans (reference_eq x0 x1 x2 x3)

end Cert.RefBridge

end
-- ==== Proof.lean ====
/-
  A graph-convolution layer as ONE pipelined call against its plain reference:
  `out = normalize_rows(β·x + (1-β)·adj·(x·W)) + bias` over `x : [10000,128]`, `adj : [10000,10000]`, `W : [128,128]`.

  The kernel walks the 10000 rows in 25 points of 400; the first point also computes `x·W` into a scratch that every
  later point reads; the adjacency matrix is streamed through two windows on the one array, each point taking two
  blocks of 200 rows. At the ideal instance a change of float format is the identity, the matrix unit's product into a
  zero accumulator and the host's contraction are the same sum, and so are the lane sum and the host's reduction: both
  programs are the specification `Cert.GcnSpec.G`, index by index, with no algebraic law needed beyond re-indexing the
  sums (so the precondition is never opened).

  The three frames: the two kernel programs by the pipeline's launch theorem for windows that share an array (the
  adjacency matrix's share split between its two windows), with the scratch's contents carried as the invariant between
  points; the reference's by its run. The idealization rewrote nothing, so `preserves` is `True`.
-/
import proofs.«145090_g70068096467658_cont_9to1_m_110_5_alg».proof.Defs
import proofs.«145090_g70068096467658_cont_9to1_m_110_5_alg».proof.Proof.Gen.Kernel
import proofs.«145090_g70068096467658_cont_9to1_m_110_5_alg».proof.Proof.Gen.KernelIdeal
import proofs.«145090_g70068096467658_cont_9to1_m_110_5_alg».proof.Proof.Gen.ReferenceIdeal
import proofs.«145090_g70068096467658_cont_9to1_m_110_5_alg».proof.Proof.Gen.Pre_finite_inputs
import proofs.«145090_g70068096467658_cont_9to1_m_110_5_alg».proof.Proof.Gen.ReferenceIdeal.Run
import proofs.«145090_g70068096467658_cont_9to1_m_110_5_alg».proof.Proof.Gen.ReferenceIdeal.Read
import proofs.«145090_g70068096467658_cont_9to1_m_110_5_alg».proof.Proof.FrameBits.Launch
import proofs.«145090_g70068096467658_cont_9to1_m_110_5_alg».proof.Proof.FrameIdeal.Launch
import proofs.«145090_g70068096467658_cont_9to1_m_110_5_alg».proof.Proof.ValueIdeal.Final
import proofs.«145090_g70068096467658_cont_9to1_m_110_5_alg».proof.Proof.RefValue
import Idealize.ShloMosaic.Adequacy
import Idealize.ShloMosaic.Init

noncomputable section

namespace Cert.Proof

open Idealize.ShloMosaic Idealize.SL.Sem

/-- The word-level kernel runs to the end, faults nowhere and leaves its four arguments unchanged. -/
theorem frame_k : Cert.frame_Kernel := fun m ρ _ => Cert.Kernel.Fr.frame m ρ

/-- So does its reading at the ideal instance. -/
theorem frame_ki : Cert.frame_KernelIdeal := fun m ρ _ => Cert.KernelIdeal.Fr.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the layer `G` of the four arguments in their result arrays. -/
theorem algebraic : Cert.algebraic_KernelIdeal_ReferenceIdeal := by
  intro m ρ m' ρ' _ hagree
  refine ⟨fun c => Cert.GcnSpec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact Cert.RefBridge.run_term_eq _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
